-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel

variable [Facts]

def fn {F : FTy → Type} [FloatOps F] (main_arg0 : FVec F S32x4096 .f32) (main_arg1 : FVec F S32x4096 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S32x4096 .f32 := Host.absf main_arg1
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  main_v8
-- ==== Kernel.lean ====
abbrev S32x4096 : Shape := ⟨2, ![32, 4096]⟩
abbrev S32x2x2048 : Shape := ⟨3, ![32, 2, 2048]⟩
abbrev S32x1x2048 : Shape := ⟨3, ![32, 1, 2048]⟩
abbrev S32x2048 : Shape := ⟨2, ![32, 2048]⟩
abbrev S32x2048x1 : Shape := ⟨3, ![32, 2048, 1]⟩
abbrev S1x2048x1 : Shape := ⟨3, ![1, 2048, 1]⟩
abbrev S1x1x256 : Shape := ⟨3, ![1, 1, 256]⟩
abbrev S2048x1 : Shape := ⟨2, ![2048, 1]⟩
abbrev S1x256 : Shape := ⟨2, ![1, 256]⟩
abbrev S2048x256 : Shape := ⟨2, ![2048, 256]⟩
abbrev S2048 : Shape := ⟨1, ![2048]⟩
abbrev S256 : Shape := ⟨1, ![256]⟩
abbrev S_ : Shape := ⟨0, ![]⟩
abbrev S32 : Shape := ⟨1, ![32]⟩

abbrev nBuf : Space → Nat
  | .hbm => 38
  | .vmem => 12
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S32x2x2048, .f32⟩
  | .hbm, ⟨3, _⟩ => ⟨S32x1x2048, .f32⟩
  | .hbm, ⟨4, _⟩ => ⟨S32x2048, .f32⟩
  | .hbm, ⟨5, _⟩ => ⟨S32x1x2048, .f32⟩
  | .hbm, ⟨6, _⟩ => ⟨S32x2048, .f32⟩
  | .hbm, ⟨7, _⟩ => ⟨S32x2x2048, .f32⟩
  | .hbm, ⟨8, _⟩ => ⟨S32x1x2048, .f32⟩
  | .hbm, ⟨9, _⟩ => ⟨S32x2048, .f32⟩
  | .hbm, ⟨10, _⟩ => ⟨S32x1x2048, .f32⟩
  | .hbm, ⟨11, _⟩ => ⟨S32x2048, .f32⟩
  | .hbm, ⟨12, _⟩ => ⟨S32x2048x1, .f32⟩
  | .hbm, ⟨13, _⟩ => ⟨S32x2048x1, .f32⟩
  | .hbm, ⟨14, _⟩ => ⟨S32x1x2048, .f32⟩
  | .hbm, ⟨15, _⟩ => ⟨S32x1x2048, .f32⟩
  | .hbm, ⟨16, _⟩ => ⟨S32x2048x1, .f32⟩
  | .hbm, ⟨17, _⟩ => ⟨S32x1x2048, .f32⟩
  | .hbm, ⟨18, _⟩ => ⟨S32x2048, .f32⟩
  | .hbm, ⟨19, _⟩ => ⟨S_, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32x2048, .f32⟩
  | .hbm, ⟨25, _⟩ => ⟨S_, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1x2048x1, .f32⟩
  | .local _ .vmem, ⟨1, _⟩ => ⟨S1x2048x1, .f32⟩
  | .local _ .vmem, ⟨2, _⟩ => ⟨S1x2048x1, .f32⟩
  | .local _ .vmem, ⟨3, _⟩ => ⟨S1x2048x1, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x2048x1, .f32⟩
  | .local _ .vmem, ⟨9, _⟩ => ⟨S1x2048x1, .f32⟩
  | .local _ .vmem, ⟨10, _⟩ => ⟨S1x1x256, .f32⟩
  | .local _ .vmem, ⟨11, _⟩ => ⟨S1x1x256, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14_0 : Ref sig .tc := ⟨.hbm, 16, rfl⟩
abbrev main_v14_1 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v25 : BitVec 1 := Scalar.cmpi .eq arg1 c0_i32
  let v26 : BitVec 32 := Scalar.extui v25
  let c0_i32_15 : BitVec 32 := 0#32
  let v27 : BitVec 1 := Scalar.cmpi .ne v26 c0_i32_15
  v27

def k0_cond2 (i : grid0.Coords) : BitVec 1 :=
  let arg1 : BitVec 32 := BitVec.ofNat 32 (i 1).val
  let c0_i32_16 : BitVec 32 := 0#32
  let v28 : BitVec 1 := Scalar.cmpi .ne arg1 c0_i32_16
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S32x4096_S32x2x2048 : S32x4096.ShapeCasts S32x2x2048
  slices_S32x2x2048_S32x1x2048_0_0_0 : S32x2x2048.Slices ![0, 0, 0] S32x1x2048
  shapeCasts_S32x1x2048_S32x2048 : S32x1x2048.ShapeCasts S32x2048
  slices_S32x2x2048_S32x1x2048_0_1_0 : S32x2x2048.Slices ![0, 1, 0] S32x1x2048
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S2048x1_S2048x256 : S2048x1.Broadcasts S2048x256
  broadcasts_S1x256_S2048x256 : S1x256.Broadcasts S2048x256
  reduces_S2048x256_S2048 : S2048x256.Reduces [1] S2048
  shapeCasts_S2048_S2048x1 : S2048.ShapeCasts S2048x1
  reduces_S2048x256_S256 : S2048x256.Reduces [0] S256
  shapeCasts_S256_S1x256 : S256.ShapeCasts S1x256
  shapeCasts_S1x256_S1x1x256 : S1x256.ShapeCasts S1x1x256
  shapeCasts_S2048x1_S1x2048x1 : S2048x1.ShapeCasts S1x2048x1
  shapeCasts_S32x2048x1_S32x2048 : S32x2048x1.ShapeCasts S32x2048
  reducesTo_S32x2048_S32_d1 : S32x2048.ReducesTo [1] S32
  h_S_ : 0 < S_.numel
  bcast_S_S32 : S_.BroadcastsInDim S32 (![] : Fin 0 → Fin S32.rank)
  reducesTo_S32_S_d0 : S32.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1.size a ≤ S32x2048x1.size a
  hwx0_0 : ∀ i : grid0.Coords, EltTy.bits .f32 = 32 ∨ (Rect.block (s := S32x2048x1) S1x2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S32x2048x1.size a
  hwx0_1 : ∀ i : grid0.Coords, EltTy.bits .f32 = 32 ∨ (Rect.block (s := S32x2048x1) S1x2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S32x1x2048.size a
  hwx0_2 : ∀ i : grid0.Coords, EltTy.bits .f32 = 32 ∨ (Rect.block (s := S32x1x2048) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S32x1x2048.size a
  hwx0_3 : ∀ i : grid0.Coords, EltTy.bits .f32 = 32 ∨ (Rect.block (s := S32x1x2048) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1.size a ≤ S32x2048x1.size a
  hwx0_4 : ∀ i : grid0.Coords, EltTy.bits .f32 = 32 ∨ (Rect.block (s := S32x2048x1) S1x2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S32x1x2048.size a
  hwx0_5 : ∀ i : grid0.Coords, EltTy.bits .f32 = 32 ∨ (Rect.block (s := S32x1x2048) S1x1x256.size (cc0_transform_5 i) (hinb0_5 i)).WholeWords (EltTy.packing .f32)

variable [Facts₀]

abbrev win0_0 : Pipeline.Window sig grid0 :=
  Pipeline.Window.ofSpec (Memref.whole main_v10) S1x2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S1x2048x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S1x1x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) && !(k0_cond2 i == 1#1) | 5 => fun _ => false | ⟨_ + 6, h⟩ => absurd h (Nat.not_lt.2 (Nat.le_add_left _ _))

class Facts : Prop extends Facts₀ where

variable [Facts]
-- ==== ReferenceIdeal.lean ====
abbrev S32x4096 : Shape := ⟨2, ![32, 4096]⟩
abbrev S32x2x2048 : Shape := ⟨3, ![32, 2, 2048]⟩
abbrev S32x2048x2 : Shape := ⟨3, ![32, 2048, 2]⟩
abbrev S32x2048x1x2 : Shape := ⟨4, ![32, 2048, 1, 2]⟩
abbrev S32x1x2048x2 : Shape := ⟨4, ![32, 1, 2048, 2]⟩
abbrev S32x2048x2048x2 : Shape := ⟨4, ![32, 2048, 2048, 2]⟩
abbrev S_ : Shape := ⟨0, ![]⟩
abbrev S32x2048x2048 : Shape := ⟨3, ![32, 2048, 2048]⟩
abbrev S32x2048 : Shape := ⟨2, ![32, 2048]⟩
abbrev S32 : Shape := ⟨1, ![32]⟩

abbrev nBuf : Space → Nat
  | .hbm => 37
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S32x2x2048, .f32⟩
  | .hbm, ⟨3, _⟩ => ⟨S32x2048x2, .f32⟩
  | .hbm, ⟨4, _⟩ => ⟨S32x2x2048, .f32⟩
  | .hbm, ⟨5, _⟩ => ⟨S32x2048x2, .f32⟩
  | .hbm, ⟨6, _⟩ => ⟨S32x2048x1x2, .f32⟩
  | .hbm, ⟨7, _⟩ => ⟨S32x1x2048x2, .f32⟩
  | .hbm, ⟨8, _⟩ => ⟨S32x2048x2048x2, .f32⟩
  | .hbm, ⟨9, _⟩ => ⟨S32x2048x2048x2, .f32⟩
  | .hbm, ⟨10, _⟩ => ⟨S32x2048x2048x2, .f32⟩
  | .hbm, ⟨11, _⟩ => ⟨S32x2048x2048x2, .f32⟩
  | .hbm, ⟨12, _⟩ => ⟨S_, .f32⟩
  | .hbm, ⟨13, _⟩ => ⟨S32x2048x2048, .f32⟩
  | .hbm, ⟨14, _⟩ => ⟨S32x2048x2048, .f32⟩
  | .hbm, ⟨15, _⟩ => ⟨S_, .f32⟩
  | .hbm, ⟨16, _⟩ => ⟨S32x2048, .f32⟩
  | .hbm, ⟨17, _⟩ => ⟨S_, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32x2048, .f32⟩
  | .hbm, ⟨24, _⟩ => ⟨S_, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  shapeCasts_S32x4096_S32x2x2048 : S32x4096.ShapeCasts S32x2x2048
  transposes_S32x2x2048_S32x2048x2_0_2_1 : S32x2x2048.Transposes [0, 2, 1] S32x2048x2
  bcast_S32x2048x2_S32x2048x1x2_0_1_3 : S32x2048x2.BroadcastsInDim S32x2048x1x2 (![0, 1, 3] : Fin 3 → Fin S32x2048x1x2.rank)
  bcast_S32x2048x2_S32x1x2048x2_0_2_3 : S32x2048x2.BroadcastsInDim S32x1x2048x2 (![0, 2, 3] : Fin 3 → Fin S32x1x2048x2.rank)
  bcast_S32x2048x1x2_S32x2048x2048x2_0_1_2_3 : S32x2048x1x2.BroadcastsInDim S32x2048x2048x2 (![0, 1, 2, 3] : Fin 4 → Fin S32x2048x2048x2.rank)
  bcast_S32x1x2048x2_S32x2048x2048x2_0_1_2_3 : S32x1x2048x2.BroadcastsInDim S32x2048x2048x2 (![0, 1, 2, 3] : Fin 4 → Fin S32x2048x2048x2.rank)
  reducesTo_S32x2048x2048x2_S32x2048x2048_d3 : S32x2048x2048x2.ReducesTo [3] S32x2048x2048
  h_S_ : 0 < S_.numel
  reducesTo_S32x2048x2048_S32x2048_d2 : S32x2048x2048.ReducesTo [2] S32x2048
  reducesTo_S32x2048_S32_d1 : S32x2048.ReducesTo [1] S32
  bcast_S_S32 : S_.BroadcastsInDim S32 (![] : Fin 0 → Fin S32.rank)
  reducesTo_S32x2048x2048_S32x2048_d1 : S32x2048x2048.ReducesTo [1] S32x2048
  reducesTo_S32_S_d0 : S32.ReducesTo [0] S_

variable [Facts₀]

class Facts : Prop extends Facts₀ where

variable [Facts]
-- ==== Proof.K.Body.lean ====
/-
  The body of `Kernel`'s one kernel, the pipeline's proof data and the body obligation, for every float instance.

  The kernel runs on a grid of 32 batches by 8 lane tiles. At a point it holds a batch's 2048 u-points as two columns
  (x and y), a tile of 256 of its v-points as two rows, forms the 2048 by 256 block of distances
  sqrt((ux - vx)^2 + (uy - vy)^2), and stores
    * into the row buffer the block's column minima (for each v-point of the tile, its distance to the closest u-point:
      final at once, since all u-points are present), written back after every point;
    * into the column buffer the block's row minima at the batch's first tile, and at a later tile the minimum of
      what the buffer held and the block's row minima: a running minimum over the batch's tiles, written back after
      the batch's last tile.
  So the body has two control cases, by whether the tile coordinate is 0, and the column buffer's contents after a
  point are defined by recursion on the point.
-/
import proofs.«112864_j4939212390978_1_alg».proof.Proof.Gen.Kernel.Frame
import proofs.«112864_j4939212390978_1_alg».proof.Proof.Gen.Kernel.Skeleton
import Idealize.ShloMosaic.Lib.Pipeline.Value
set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

/-! ## Where the two branches are taken

The body stores the running minimum of a batch's rows under two conditions on the lane-tile coordinate: it is the
first tile of the batch (the coordinate is 0), or it is a later one. Over the 256 points of the grid, in row-major
order of (batch, tile), these are the points with `t % 8 = 0` and `t % 8 ≠ 0`. -/

theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
theorem hcond2 : ∀ t : Fin cfg0.N, k0_cond2 (grid0.coords t) = 1#1 ↔ t.val % 8 ≠ 0 :=
  (by decide +kernel : ∀ t : Fin grid0.N, k0_cond2 (grid0.coords t) = 1#1 ↔ t.val % 8 ≠ 0)

/-- The whole-buffer rectangle of a column of 2048 rows, and of a row of 256 lanes. -/
abbrev rU : Rect S1x2048x1 := Rect.unit (s := S1x2048x1) ![0, 0, 0] S1x2048x1.size inb_S1x2048x1_S1x2048x1_0_0_0
abbrev rV : Rect S1x1x256 := Rect.unit (s := S1x1x256) ![0, 0, 0] S1x1x256.size inb_S1x1x256_S1x1x256_0_0_0

/-- Both rectangles start at the origin. -/
theorem off0 : (![0, 0, 0] : Fin 3 → ℕ) = fun _ => 0 := funext fun a => by fin_cases a <;> rfl

/-- One store through the whole-buffer rectangle covers every index of the buffer. -/
theorem coverU (w : Vec F S1x2048x1 .f32) (y : S1x2048x1.Idx) :
    ∃ pc ∈ ([⟨rU, w⟩] : List (View.Piece (Elt F) S1x2048x1 .f32)), y ∈ pc.1.set :=
  View.cover_of_tiled [⟨rU, w⟩] S1x2048x1.size (by rfl) y
theorem coverV (w : Vec F S1x1x256 .f32) (y : S1x1x256.Idx) :
    ∃ pc ∈ ([⟨rV, w⟩] : List (View.Piece (Elt F) S1x1x256 .f32)), y ∈ pc.1.set :=
  View.cover_of_tiled [⟨rV, w⟩] S1x1x256.size (by rfl) y

/-! ## The body's triple, by case

On whole staging buffers, the four inputs' at contents `x0 … x3` (the batch's u-points as two columns, a tile of its
v-points as two rows): the body leaves the inputs as they were, the row buffer at the tile's column minima
(`k0_pay3`), and the column buffer at the tile's row minima (`k0_pay4`) when the tile is the batch's first, and at the
minimum of what it held and the tile's row minima (`k0_pay5`) otherwise. -/

theorem sound_kernel_A (c : Dev nD) (i : grid0.Coords)
    (arg2 : Memref sig .tc .vmem S1x2048x1 .f32) (harg2 : arg2.IsWhole) (arg3 : Memref sig .tc .vmem S1x2048x1 .f32) (harg3 : arg3.IsWhole)
    (arg4 : Memref sig .tc .vmem S1x1x256 .f32) (harg4 : arg4.IsWhole) (arg5 : Memref sig .tc .vmem S1x1x256 .f32) (harg5 : arg5.IsWhole)
    (arg6 : Memref sig .tc .vmem S1x2048x1 .f32) (harg6 : arg6.IsWhole) (arg7 : Memref sig .tc .vmem S1x1x256 .f32) (harg7 : arg7.IsWhole)
    (h1 : k0_cond1 i = 1#1) (h2 : ¬k0_cond2 i = 1#1)
    (x0 x1 : Vec F S1x2048x1 .f32) (x2 x3 : Vec F S1x1x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay4 x0 x1 x2 x3)
            ∗ owns (c : Thread nD τ) arg7 fullShare (k0_pay3 x0 x1 x2 x3)) -∗ K ⟨⟩))
      ⊢ wp frame (wpE (defs₀ (F := F)) Variants.none c none) Set.univ
          (cc0__p2cp_kernel i arg2 harg2 arg3 harg3 arg4 harg4 arg5 harg5 arg6 harg6 arg7 harg7) K := by
  simp only [cc0__p2cp_kernel_eq_skeleton]; unfold cc0__p2cp_kernel_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
  subst hf0 hf1 hf2 hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [View.read_writes_eq_canon _ _ _ (coverU _), View.canon_unit_zero off0]
    simp only [View.readAt_eq_ld, View.ld_unit_zero (S := S1x2048x1) off0, View.ld_unit_zero (S := S1x1x256) off0]
  · iexists _; isplitr
    swap; · iexact H7
    ipureintro
    rw [View.read_writes_eq_canon _ _ _ (coverV _), View.canon_unit_zero off0]
    simp only [View.readAt_eq_ld, View.ld_unit_zero (S := S1x2048x1) off0, View.ld_unit_zero (S := S1x1x256) off0]

theorem sound_kernel_B (c : Dev nD) (i : grid0.Coords)
    (arg2 : Memref sig .tc .vmem S1x2048x1 .f32) (harg2 : arg2.IsWhole) (arg3 : Memref sig .tc .vmem S1x2048x1 .f32) (harg3 : arg3.IsWhole)
    (arg4 : Memref sig .tc .vmem S1x1x256 .f32) (harg4 : arg4.IsWhole) (arg5 : Memref sig .tc .vmem S1x1x256 .f32) (harg5 : arg5.IsWhole)
    (arg6 : Memref sig .tc .vmem S1x2048x1 .f32) (harg6 : arg6.IsWhole) (arg7 : Memref sig .tc .vmem S1x1x256 .f32) (harg7 : arg7.IsWhole)
    (h1 : ¬k0_cond1 i = 1#1) (h2 : k0_cond2 i = 1#1)
    (x0 x1 : Vec F S1x2048x1 .f32) (x2 x3 : Vec F S1x1x256 .f32) (y : Vec F S1x2048x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare y ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay5 x0 x1 x2 x3 y)
            ∗ owns (c : Thread nD τ) arg7 fullShare (k0_pay3 x0 x1 x2 x3)) -∗ K ⟨⟩))
      ⊢ wp frame (wpE (defs₀ (F := F)) Variants.none c none) Set.univ
          (cc0__p2cp_kernel i arg2 harg2 arg3 harg3 arg4 harg4 arg5 harg5 arg6 harg6 arg7 harg7) K := by
  simp only [cc0__p2cp_kernel_eq_skeleton]; unfold cc0__p2cp_kernel_skel
  unfold owns
  iintro ⟨⟨%f0, %hf0, H0⟩, ⟨%f1, %hf1, H1⟩, ⟨%f2, %hf2, H2⟩, ⟨%f3, %hf3, H3⟩, ⟨%f6, %hf6, H6⟩, ⟨%d7, %f7, -, H7⟩, Hk⟩
  subst hf0 hf1 hf2 hf3 hf6
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [View.read_writes_eq_canon _ _ _ (coverU _), View.canon_unit_zero off0]
    simp only [View.readAt_eq_ld, View.ld_unit_zero (S := S1x2048x1) off0, View.ld_unit_zero (S := S1x1x256) off0]
  · iexists _; isplitr
    swap; · iexact H7
    ipureintro
    rw [View.read_writes_eq_canon _ _ _ (coverV _), View.canon_unit_zero off0]
    simp only [View.readAt_eq_ld, View.ld_unit_zero (S := S1x2048x1) off0, View.ld_unit_zero (S := S1x1x256) off0]

/-! ## The running minimum, point by point -/

variable (m : (ℓ : Loc nD τ sig) → Buf (Elt F) ℓ) (ρ : Dev nD → PrngReg)

/-- What the column buffer holds after the body at position `n` of the grid: at the first tile of a batch the tile's row
    minima; at a later tile the minimum of what the tile before left and this tile's row minima. The buffer is
    written back only after a batch's last tile, so within a batch each point finds what the point before left. -/
def accAt (c : Dev nD) : (n : ℕ) → n < cfg0.N → Vec F S1x2048x1 .f32
  | 0, hn => k0_pay4 (iblk m c 0 ⟨0, hn⟩) (iblk m c 1 ⟨0, hn⟩) (iblk m c 2 ⟨0, hn⟩) (iblk m c 3 ⟨0, hn⟩)
  | n + 1, hn =>
    if (n + 1) % 8 = 0 then
      k0_pay4 (iblk m c 0 ⟨n + 1, hn⟩) (iblk m c 1 ⟨n + 1, hn⟩) (iblk m c 2 ⟨n + 1, hn⟩) (iblk m c 3 ⟨n + 1, hn⟩)
    else
      k0_pay5 (iblk m c 0 ⟨n + 1, hn⟩) (iblk m c 1 ⟨n + 1, hn⟩) (iblk m c 2 ⟨n + 1, hn⟩) (iblk m c 3 ⟨n + 1, hn⟩)
        (accAt c n (Nat.lt_of_succ_lt hn))

/-- At a batch's first tile. -/
theorem accAt_first (c : Dev nD) (t : Fin cfg0.N) (h0 : t.val % 8 = 0) :
    accAt m c t.val t.isLt = k0_pay4 (iblk m c 0 t) (iblk m c 1 t) (iblk m c 2 t) (iblk m c 3 t) := by
  obtain ⟨n, hn⟩ := t
  cases n with
  | zero => exact rfl
  | succ n => exact (if_pos h0).trans rfl

/-- At a later tile. -/
theorem accAt_later (c : Dev nD) (t : Fin cfg0.N) (h0 : ¬t.val % 8 = 0) :
    accAt m c t.val t.isLt = k0_pay5 (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- On core `c`: the six arrays as the region finds them; after the body at point `t` each input's buffer at its block,
    the column buffer at the running minimum, the row buffer at the tile's column minima; the invariant is the
    scoped rest and the generator register, untouched; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
    | ⟨5, _⟩ => k0_pay3 (iblk m c 0 t) (iblk m c 1 t) (iblk m c 2 t) (iblk m c 3 t)
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = accAt m c t.val t.isLt := by dsimp only [dats]
theorem after0_5 (c : Dev nD) (t : Fin cfg0.N) :
    (dats m 0 c).after 5 t = k0_pay3 (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The column window is stored into at every point: one of the two branches is always taken. -/
theorem live4 (i : grid0.Coords) : cfg0.idle 4 i = false := by
  have h : ∀ v : Fin 8,
      (!(Scalar.cmpi .ne (Scalar.extui (Scalar.cmpi .eq (BitVec.ofNat 32 v.val) 0#32)) 0#32 == 1#1)
        && !(Scalar.cmpi .ne (Scalar.extui (Scalar.cmpi .ne (BitVec.ofNat 32 v.val) 0#32)) 0#32 == 1#1)) = false := by decide
  exact h (i 1)

/-- At a later tile of a batch the column buffer holds what the tile before left: the point is not the first, the buffer
    was not written back in between (that happens after a batch's last tile only), and the window is live and uncut. -/
theorem before0_4_later (c : Dev nD) (t : Fin cfg0.N) (h0 : ¬t.val % 8 = 0) (d) :
    (dats m 0 c).before 4 t d = accAt m c (t.val - 1) (Nat.lt_of_le_of_lt (Nat.sub_le _ _) t.isLt) := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    (fun i => live4 i) (fun _ _ => rfl)]
  dsimp only [dats]

/-! ## The body obligation, at a generic point -/

/-- Each window's current staging memref at point `t`, as the pipeline passes it to the body. -/
abbrev ms0 (t : Fin cfg0.N) : Memref sig .tc .vmem S1x2048x1 .f32 := win0_0.stage (cfg0.slots t 0)
abbrev ms1 (t : Fin cfg0.N) : Memref sig .tc .vmem S1x2048x1 .f32 := win0_1.stage (cfg0.slots t 1)
abbrev ms2 (t : Fin cfg0.N) : Memref sig .tc .vmem S1x1x256 .f32 := win0_2.stage (cfg0.slots t 2)
abbrev ms3 (t : Fin cfg0.N) : Memref sig .tc .vmem S1x1x256 .f32 := win0_3.stage (cfg0.slots t 3)
abbrev ms4 (t : Fin cfg0.N) : Memref sig .tc .vmem S1x2048x1 .f32 := win0_4.stage (cfg0.slots t 4)
abbrev ms5 (t : Fin cfg0.N) : Memref sig .tc .vmem S1x1x256 .f32 := win0_5.stage (cfg0.slots t 5)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 800000 in
/-- The body at any point: the inputs' memrefs hold their blocks; the point is a batch's first tile or a later one, and at
    a later one the column buffer holds what the tile before left; so the case's triple applies; the invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  by_cases h0 : t.val % 8 = 0
  · rw [accAt_first m c t h0]
    iintro ⟨HΦ, Ho, ⟨%d0, H0⟩, ⟨%d1, H1⟩, ⟨%d2, H2⟩, ⟨%d3, H3⟩, ⟨%d4, H4⟩, ⟨%d5, H5⟩⟩
    iapply (sound_kernel_A c (grid0.coords t) _ _ _ _ _ _ _ _ _ _ _ _ ((hcond1 t).mpr h0) (fun h => (hcond2 t).mp h h0)
      (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [accAt_later m c t h0]
    simp only [before0_4_later m c t h0]
    iintro ⟨HΦ, Ho, ⟨%d0, H0⟩, ⟨%d1, H1⟩, ⟨%d2, H2⟩, ⟨%d3, H3⟩, ⟨%d4, H4⟩, ⟨%d5, H5⟩⟩
    iapply (sound_kernel_B c (grid0.coords t) _ _ _ _ _ _ _ _ _ _ _ _ (fun h => h0 ((hcond1 t).mp h)) ((hcond2 t).mpr h0)
      (iblk m c 0 t) (iblk m c 1 t) (iblk m c 2 t) (iblk m c 3 t)
      (accAt m c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

end Cert.Proof.K

end
-- ==== Proof.K.Run.lean ====
/-
  The frame run of `Kernel`: the body obligation at every grid point (the windows opened one by one; the column
  window is stored into at every point, so it is never handed back untouched), the launch of the one pipeline around
  which @main runs its host operations, and the frame: every weakly fair execution terminates, nothing faults, and
  the two argument arrays end as they were launched.
-/
import proofs.«112864_j4939212390978_1_alg».proof.Proof.K.Body

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body obligation, at every point. -/
theorem body_obligation (c : Dev nD) : BodyObligation (dats (F := F) m 0 c) (defs₀ (F := F)) Variants.none () Set.univ := fun t => by
  rw [bigSep_W0, bigSep_W0]
  have hlive : idle0 4 (grid0.coords t) = false := live4 _
  simp only [hlive]
  exact sound_body m c t

set_option backward.isDefEq.respectTransparency.types false in
/-- For any float values, from any memory with zero counters: every weakly fair execution of @main terminates, and every
    final state has every array of the pipeline at what the proof data's write-backs leave (an input as the region found
    it; the column output and the row output as the flushed buffers overwrite them) and every other unscoped buffer as
    the host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates without a fault and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.K

end
-- ==== Proof.KI.Body.lean ====
/-
  The body of `KernelIdeal`'s one kernel, the pipeline's proof data and the body obligation, for every float instance.

  The kernel runs on a grid of 32 batches by 8 lane tiles. At a point it holds a batch's 2048 u-points as two columns
  (x and y), a tile of 256 of its v-points as two rows, forms the 2048 by 256 block of distances
  sqrt((ux - vx)^2 + (uy - vy)^2), and stores
    * into the row buffer the block's column minima (for each v-point of the tile, its distance to the closest u-point:
      final at once, since all u-points are present), written back after every point;
    * into the column buffer the block's row minima at the batch's first tile, and at a later tile the minimum of
      what the buffer held and the block's row minima: a running minimum over the batch's tiles, written back after
      the batch's last tile.
  So the body has two control cases, by whether the tile coordinate is 0, and the column buffer's contents after a
  point are defined by recursion on the point.
-/
import proofs.«112864_j4939212390978_1_alg».proof.Proof.Gen.KernelIdeal.Frame
import proofs.«112864_j4939212390978_1_alg».proof.Proof.Gen.KernelIdeal.Skeleton
import Idealize.ShloMosaic.Lib.Pipeline.Value
set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

/-! ## Where the two branches are taken

The body stores the running minimum of a batch's rows under two conditions on the lane-tile coordinate: it is the
first tile of the batch (the coordinate is 0), or it is a later one. Over the 256 points of the grid, in row-major
order of (batch, tile), these are the points with `t % 8 = 0` and `t % 8 ≠ 0`. -/

theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
theorem hcond2 : ∀ t : Fin cfg0.N, k0_cond2 (grid0.coords t) = 1#1 ↔ t.val % 8 ≠ 0 :=
  (by decide +kernel : ∀ t : Fin grid0.N, k0_cond2 (grid0.coords t) = 1#1 ↔ t.val % 8 ≠ 0)

/-- The whole-buffer rectangle of a column of 2048 rows, and of a row of 256 lanes. -/
abbrev rU : Rect S1x2048x1 := Rect.unit (s := S1x2048x1) ![0, 0, 0] S1x2048x1.size inb_S1x2048x1_S1x2048x1_0_0_0
abbrev rV : Rect S1x1x256 := Rect.unit (s := S1x1x256) ![0, 0, 0] S1x1x256.size inb_S1x1x256_S1x1x256_0_0_0

/-- Both rectangles start at the origin. -/
theorem off0 : (![0, 0, 0] : Fin 3 → ℕ) = fun _ => 0 := funext fun a => by fin_cases a <;> rfl

/-- One store through the whole-buffer rectangle covers every index of the buffer. -/
theorem coverU (w : Vec F S1x2048x1 .f32) (y : S1x2048x1.Idx) :
    ∃ pc ∈ ([⟨rU, w⟩] : List (View.Piece (Elt F) S1x2048x1 .f32)), y ∈ pc.1.set :=
  View.cover_of_tiled [⟨rU, w⟩] S1x2048x1.size (by rfl) y
theorem coverV (w : Vec F S1x1x256 .f32) (y : S1x1x256.Idx) :
    ∃ pc ∈ ([⟨rV, w⟩] : List (View.Piece (Elt F) S1x1x256 .f32)), y ∈ pc.1.set :=
  View.cover_of_tiled [⟨rV, w⟩] S1x1x256.size (by rfl) y

/-! ## The body's triple, by case

On whole staging buffers, the four inputs' at contents `x0 … x3` (the batch's u-points as two columns, a tile of its
v-points as two rows): the body leaves the inputs as they were, the row buffer at the tile's column minima
(`k0_pay3`), and the column buffer at the tile's row minima (`k0_pay4`) when the tile is the batch's first, and at the
minimum of what it held and the tile's row minima (`k0_pay5`) otherwise. -/

theorem sound_kernel_A (c : Dev nD) (i : grid0.Coords)
    (arg2 : Memref sig .tc .vmem S1x2048x1 .f32) (harg2 : arg2.IsWhole) (arg3 : Memref sig .tc .vmem S1x2048x1 .f32) (harg3 : arg3.IsWhole)
    (arg4 : Memref sig .tc .vmem S1x1x256 .f32) (harg4 : arg4.IsWhole) (arg5 : Memref sig .tc .vmem S1x1x256 .f32) (harg5 : arg5.IsWhole)
    (arg6 : Memref sig .tc .vmem S1x2048x1 .f32) (harg6 : arg6.IsWhole) (arg7 : Memref sig .tc .vmem S1x1x256 .f32) (harg7 : arg7.IsWhole)
    (h1 : k0_cond1 i = 1#1) (h2 : ¬k0_cond2 i = 1#1)
    (x0 x1 : Vec F S1x2048x1 .f32) (x2 x3 : Vec F S1x1x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay4 x0 x1 x2 x3)
            ∗ owns (c : Thread nD τ) arg7 fullShare (k0_pay3 x0 x1 x2 x3)) -∗ K ⟨⟩))
      ⊢ wp frame (wpE (defs₀ (F := F)) Variants.none c none) Set.univ
          (cc0__p2cp_kernel i arg2 harg2 arg3 harg3 arg4 harg4 arg5 harg5 arg6 harg6 arg7 harg7) K := by
  simp only [cc0__p2cp_kernel_eq_skeleton]; unfold cc0__p2cp_kernel_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
  subst hf0 hf1 hf2 hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [View.read_writes_eq_canon _ _ _ (coverU _), View.canon_unit_zero off0]
    simp only [View.readAt_eq_ld, View.ld_unit_zero (S := S1x2048x1) off0, View.ld_unit_zero (S := S1x1x256) off0]
  · iexists _; isplitr
    swap; · iexact H7
    ipureintro
    rw [View.read_writes_eq_canon _ _ _ (coverV _), View.canon_unit_zero off0]
    simp only [View.readAt_eq_ld, View.ld_unit_zero (S := S1x2048x1) off0, View.ld_unit_zero (S := S1x1x256) off0]

theorem sound_kernel_B (c : Dev nD) (i : grid0.Coords)
    (arg2 : Memref sig .tc .vmem S1x2048x1 .f32) (harg2 : arg2.IsWhole) (arg3 : Memref sig .tc .vmem S1x2048x1 .f32) (harg3 : arg3.IsWhole)
    (arg4 : Memref sig .tc .vmem S1x1x256 .f32) (harg4 : arg4.IsWhole) (arg5 : Memref sig .tc .vmem S1x1x256 .f32) (harg5 : arg5.IsWhole)
    (arg6 : Memref sig .tc .vmem S1x2048x1 .f32) (harg6 : arg6.IsWhole) (arg7 : Memref sig .tc .vmem S1x1x256 .f32) (harg7 : arg7.IsWhole)
    (h1 : ¬k0_cond1 i = 1#1) (h2 : k0_cond2 i = 1#1)
    (x0 x1 : Vec F S1x2048x1 .f32) (x2 x3 : Vec F S1x1x256 .f32) (y : Vec F S1x2048x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare y ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay5 x0 x1 x2 x3 y)
            ∗ owns (c : Thread nD τ) arg7 fullShare (k0_pay3 x0 x1 x2 x3)) -∗ K ⟨⟩))
      ⊢ wp frame (wpE (defs₀ (F := F)) Variants.none c none) Set.univ
          (cc0__p2cp_kernel i arg2 harg2 arg3 harg3 arg4 harg4 arg5 harg5 arg6 harg6 arg7 harg7) K := by
  simp only [cc0__p2cp_kernel_eq_skeleton]; unfold cc0__p2cp_kernel_skel
  unfold owns
  iintro ⟨⟨%f0, %hf0, H0⟩, ⟨%f1, %hf1, H1⟩, ⟨%f2, %hf2, H2⟩, ⟨%f3, %hf3, H3⟩, ⟨%f6, %hf6, H6⟩, ⟨%d7, %f7, -, H7⟩, Hk⟩
  subst hf0 hf1 hf2 hf3 hf6
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [View.read_writes_eq_canon _ _ _ (coverU _), View.canon_unit_zero off0]
    simp only [View.readAt_eq_ld, View.ld_unit_zero (S := S1x2048x1) off0, View.ld_unit_zero (S := S1x1x256) off0]
  · iexists _; isplitr
    swap; · iexact H7
    ipureintro
    rw [View.read_writes_eq_canon _ _ _ (coverV _), View.canon_unit_zero off0]
    simp only [View.readAt_eq_ld, View.ld_unit_zero (S := S1x2048x1) off0, View.ld_unit_zero (S := S1x1x256) off0]

/-! ## The running minimum, point by point -/

variable (m : (ℓ : Loc nD τ sig) → Buf (Elt F) ℓ) (ρ : Dev nD → PrngReg)

/-- What the column buffer holds after the body at position `n` of the grid: at the first tile of a batch the tile's row
    minima; at a later tile the minimum of what the tile before left and this tile's row minima. The buffer is
    written back only after a batch's last tile, so within a batch each point finds what the point before left. -/
def accAt (c : Dev nD) : (n : ℕ) → n < cfg0.N → Vec F S1x2048x1 .f32
  | 0, hn => k0_pay4 (iblk m c 0 ⟨0, hn⟩) (iblk m c 1 ⟨0, hn⟩) (iblk m c 2 ⟨0, hn⟩) (iblk m c 3 ⟨0, hn⟩)
  | n + 1, hn =>
    if (n + 1) % 8 = 0 then
      k0_pay4 (iblk m c 0 ⟨n + 1, hn⟩) (iblk m c 1 ⟨n + 1, hn⟩) (iblk m c 2 ⟨n + 1, hn⟩) (iblk m c 3 ⟨n + 1, hn⟩)
    else
      k0_pay5 (iblk m c 0 ⟨n + 1, hn⟩) (iblk m c 1 ⟨n + 1, hn⟩) (iblk m c 2 ⟨n + 1, hn⟩) (iblk m c 3 ⟨n + 1, hn⟩)
        (accAt c n (Nat.lt_of_succ_lt hn))

/-- At a batch's first tile. -/
theorem accAt_first (c : Dev nD) (t : Fin cfg0.N) (h0 : t.val % 8 = 0) :
    accAt m c t.val t.isLt = k0_pay4 (iblk m c 0 t) (iblk m c 1 t) (iblk m c 2 t) (iblk m c 3 t) := by
  obtain ⟨n, hn⟩ := t
  cases n with
  | zero => exact rfl
  | succ n => exact (if_pos h0).trans rfl

/-- At a later tile. -/
theorem accAt_later (c : Dev nD) (t : Fin cfg0.N) (h0 : ¬t.val % 8 = 0) :
    accAt m c t.val t.isLt = k0_pay5 (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- On core `c`: the six arrays as the region finds them; after the body at point `t` each input's buffer at its block,
    the column buffer at the running minimum, the row buffer at the tile's column minima; the invariant is the
    scoped rest and the generator register, untouched; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
    | ⟨5, _⟩ => k0_pay3 (iblk m c 0 t) (iblk m c 1 t) (iblk m c 2 t) (iblk m c 3 t)
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = accAt m c t.val t.isLt := by dsimp only [dats]
theorem after0_5 (c : Dev nD) (t : Fin cfg0.N) :
    (dats m 0 c).after 5 t = k0_pay3 (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The column window is stored into at every point: one of the two branches is always taken. -/
theorem live4 (i : grid0.Coords) : cfg0.idle 4 i = false := by
  have h : ∀ v : Fin 8,
      (!(Scalar.cmpi .ne (Scalar.extui (Scalar.cmpi .eq (BitVec.ofNat 32 v.val) 0#32)) 0#32 == 1#1)
        && !(Scalar.cmpi .ne (Scalar.extui (Scalar.cmpi .ne (BitVec.ofNat 32 v.val) 0#32)) 0#32 == 1#1)) = false := by decide
  exact h (i 1)

/-- At a later tile of a batch the column buffer holds what the tile before left: the point is not the first, the buffer
    was not written back in between (that happens after a batch's last tile only), and the window is live and uncut. -/
theorem before0_4_later (c : Dev nD) (t : Fin cfg0.N) (h0 : ¬t.val % 8 = 0) (d) :
    (dats m 0 c).before 4 t d = accAt m c (t.val - 1) (Nat.lt_of_le_of_lt (Nat.sub_le _ _) t.isLt) := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    (fun i => live4 i) (fun _ _ => rfl)]
  dsimp only [dats]

/-! ## The body obligation, at a generic point -/

/-- Each window's current staging memref at point `t`, as the pipeline passes it to the body. -/
abbrev ms0 (t : Fin cfg0.N) : Memref sig .tc .vmem S1x2048x1 .f32 := win0_0.stage (cfg0.slots t 0)
abbrev ms1 (t : Fin cfg0.N) : Memref sig .tc .vmem S1x2048x1 .f32 := win0_1.stage (cfg0.slots t 1)
abbrev ms2 (t : Fin cfg0.N) : Memref sig .tc .vmem S1x1x256 .f32 := win0_2.stage (cfg0.slots t 2)
abbrev ms3 (t : Fin cfg0.N) : Memref sig .tc .vmem S1x1x256 .f32 := win0_3.stage (cfg0.slots t 3)
abbrev ms4 (t : Fin cfg0.N) : Memref sig .tc .vmem S1x2048x1 .f32 := win0_4.stage (cfg0.slots t 4)
abbrev ms5 (t : Fin cfg0.N) : Memref sig .tc .vmem S1x1x256 .f32 := win0_5.stage (cfg0.slots t 5)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 800000 in
/-- The body at any point: the inputs' memrefs hold their blocks; the point is a batch's first tile or a later one, and at
    a later one the column buffer holds what the tile before left; so the case's triple applies; the invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  by_cases h0 : t.val % 8 = 0
  · rw [accAt_first m c t h0]
    iintro ⟨HΦ, Ho, ⟨%d0, H0⟩, ⟨%d1, H1⟩, ⟨%d2, H2⟩, ⟨%d3, H3⟩, ⟨%d4, H4⟩, ⟨%d5, H5⟩⟩
    iapply (sound_kernel_A c (grid0.coords t) _ _ _ _ _ _ _ _ _ _ _ _ ((hcond1 t).mpr h0) (fun h => (hcond2 t).mp h h0)
      (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [accAt_later m c t h0]
    simp only [before0_4_later m c t h0]
    iintro ⟨HΦ, Ho, ⟨%d0, H0⟩, ⟨%d1, H1⟩, ⟨%d2, H2⟩, ⟨%d3, H3⟩, ⟨%d4, H4⟩, ⟨%d5, H5⟩⟩
    iapply (sound_kernel_B c (grid0.coords t) _ _ _ _ _ _ _ _ _ _ _ _ (fun h => h0 ((hcond1 t).mp h)) ((hcond2 t).mpr h0)
      (iblk m c 0 t) (iblk m c 1 t) (iblk m c 2 t) (iblk m c 3 t)
      (accAt m c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

end Cert.Proof.KI

end
-- ==== Proof.Spec.lean ====
/-
  The mathematics both programs compute, on the extended reals.

  A batch holds 2048 planar points u_i = (ux i, uy i) and 2048 planar points v_j = (vx j, vy j). Both programs form
  the distances d(i, j) = sqrt((ux i - vx j)^2 + (uy i - vy j)^2), take for each u-point the minimum over the
  v-points and for each v-point the minimum over the u-points, and average. They differ in how a minimum over the
  2048 v-points is taken: at once, or tile by tile of 256 as a running minimum. A minimum is carried here by its
  universal property: `v` is the minimum of a family `f` over the indices satisfying `p` when
  `x ≤ v ↔ ∀ j, p j → x ≤ f j` for every `x`; two such values are equal, a fold of `min` from the top element
  is one, and the minimum of a running minimum over the first `k` tiles and of tile `k`'s minimum is the running
  minimum over the first `k + 1` tiles.
-/
import Idealize.ShloMosaic.PureOps.Ideal
import Mathlib.Data.Finset.Fold
import Mathlib.Order.Lattice

noncomputable section

namespace Cert.Proof.Spec

open Idealize.ShloMosaic

/-- The Euclidean distance of the planar points (ux, uy) and (vx, vy), with the operations of the extended reals. -/
def dist (ux uy vx vy : EReal) : EReal := Ideal.sqrt ((ux - vx) * (ux - vx) + (uy - vy) * (uy - vy))

/-- `v` is the minimum of `f` over the indices satisfying `p`. -/
def IsMinOn {ι : Type} (p : ι → Prop) (v : EReal) (f : ι → EReal) : Prop := ∀ x : EReal, x ≤ v ↔ ∀ j, p j → x ≤ f j

/-- `v` is the minimum of `f`. -/
def IsMin {ι : Type} (v : EReal) (f : ι → EReal) : Prop := ∀ x : EReal, x ≤ v ↔ ∀ j, x ≤ f j

/-- A family has one minimum. -/
theorem IsMin.unique {ι : Type} {v v' : EReal} {f : ι → EReal} (h : IsMin v f) (h' : IsMin v' f) : v = v' :=
  eq_of_forall_le_iff fun x => (h x).trans (h' x).symm

/-- The minimum over all indices is the minimum. -/
theorem IsMinOn.isMin {ι : Type} {p : ι → Prop} {v : EReal} {f : ι → EReal} (h : IsMinOn p v f) (hp : ∀ j, p j) : IsMin v f :=
  fun x => (h x).trans ⟨fun hx j => hx j (hp j), fun hx j _ => hx j⟩

/-- The fold of `min` from the top element over a finite index type is the family's minimum. -/
theorem isMin_fold {n : ℕ} (f : Fin n → EReal) : IsMin ((Finset.univ : Finset (Fin n)).fold min ⊤ f) f := by
  intro x
  rw [Finset.le_fold_min]
  exact ⟨fun h j => h.2 j (Finset.mem_univ j), fun h => ⟨le_top, fun j _ => h j⟩⟩

/-- THE TILE STEP. Over indices below `T * (k + 1)`: the minimum of the running minimum over the indices below `T * k`
    and of the minimum of tile `k` (the indices `T * k + l`, `l < T`). -/
theorem IsMinOn.tile_step {N T k : ℕ} (hk : T * (k + 1) ≤ N) {y z : EReal} {f : Fin N → EReal}
    (hy : IsMinOn (fun j : Fin N => j.val < T * k) y f)
    (hz : ∀ x : EReal, x ≤ z ↔ ∀ l : Fin T, x ≤ f ⟨T * k + l.val, by have := l.isLt; nlinarith⟩) :
    IsMinOn (fun j : Fin N => j.val < T * (k + 1)) (min y z) f := by
  have hT : T * (k + 1) = T * k + T := by ring
  intro x
  rw [le_min_iff, hy x, hz x]
  constructor
  · rintro ⟨h1, h2⟩ j hj
    by_cases hlt : j.val < T * k
    · exact h1 j hlt
    · have hj' : j.val < T * (k + 1) := hj
      have hl : j.val - T * k < T := by omega
      have h3 := h2 ⟨j.val - T * k, hl⟩
      have e : (⟨T * k + (j.val - T * k), by omega⟩ : Fin N) = j := Fin.ext (by show T * k + (j.val - T * k) = j.val; omega)
      rw [e] at h3
      exact h3
  · intro h
    refine ⟨fun j hj => h j ?_, fun l => h _ ?_⟩
    · show j.val < T * (k + 1)
      have hj' : j.val < T * k := hj
      omega
    · show T * k + l.val < T * (k + 1)
      have := l.isLt
      omega

/-- THE FIRST TILE: its minimum is the running minimum over the indices below `T`. -/
theorem IsMinOn.first_tile {N T : ℕ} (hT : T ≤ N) {z : EReal} {f : Fin N → EReal}
    (hz : ∀ x : EReal, x ≤ z ↔ ∀ l : Fin T, x ≤ f ⟨l.val, lt_of_lt_of_le l.isLt hT⟩) :
    IsMinOn (fun j : Fin N => j.val < T) z f := by
  intro x
  rw [hz x]
  exact ⟨fun h j hj => h ⟨j.val, hj⟩, fun h l => h _ l.isLt⟩

end Cert.Proof.Spec

end
-- ==== Proof.SpecArr.lean ====
/-
  The two argument arrays as point clouds, the table of distances, and the averaging both programs end with.

  An argument array holds, per batch, 4096 numbers: the x coordinates of the batch's 2048 points, then their y
  coordinates. `D a0 a1 b i j` is the distance, in batch `b`, from point `i` of the first array to point `j` of the second.
  Both programs end by the same host operations on the two arrays of minima (`u`: for each point of the first cloud
  its distance to the closest point of the second; `v`: the other way round): each is summed over the batch's
  points and divided by 2048, the two means are added and halved, and the 32 batches' values are summed and divided by
  32. That chain is named once, `tail u v`, and never opened: the certificate shows the two programs feed it equal arrays.
-/
import proofs.«112864_j4939212390978_1_alg».proof.Proof.Spec
import Idealize.ShloMosaic.Lib.ValueIdx
import Idealize.ShloMosaic.PureOps

noncomputable section

namespace Cert.Proof.Spec

open Idealize.ShloMosaic Idealize.ShloMosaic.ValueIdx

abbrev SArg : Shape := ⟨2, ![32, 4096]⟩
abbrev SMin : Shape := ⟨2, ![32, 2048]⟩
abbrev SBatch : Shape := ⟨1, ![32]⟩
abbrev SScalar : Shape := ⟨0, ![]⟩

/-- The x coordinate of point `i` of batch `b`: entry `i` of the batch's row. -/
def px (a : FVec Ideal SArg .f32) (b : Fin 32) (i : Fin 2048) : EReal := a (ix2 b ⟨i.val, by have := i.isLt; omega⟩)
/-- Its y coordinate: entry `2048 + i`. -/
def py (a : FVec Ideal SArg .f32) (b : Fin 32) (i : Fin 2048) : EReal := a (ix2 b ⟨2048 + i.val, by have := i.isLt; omega⟩)

/-- The distance from point `i` of the first cloud to point `j` of the second, in batch `b`. -/
def D (a0 a1 : FVec Ideal SArg .f32) (b : Fin 32) (i j : Fin 2048) : EReal :=
  dist (px a0 b i) (py a0 b i) (px a1 b j) (py a1 b j)

theorem hsum : SMin.ReducesTo [1] SBatch := by decide
theorem hall : SBatch.ReducesTo [0] SScalar := by decide
theorem hone : 0 < SScalar.numel := by decide
theorem hbc : SScalar.BroadcastsInDim SBatch (![] : Fin 0 → Fin SBatch.rank) := by decide

/-- The averaging: mean over the batch's points of each array of minima, half the sum of the two means, mean over the batches. -/
def tail (u v : FVec Ideal SMin .f32) : FVec Ideal SScalar .f32 :=
  Host.divf
    (Host.reduceAdd
      (mulf (broadcastInDim SBatch ![] hbc (constant (F := Ideal) SScalar .f32 0x3F000000#32))
        (addf
          (Host.divf (Host.reduceAdd u (constant (F := Ideal) SScalar .f32 0x00000000#32) hsum hone)
            (broadcastInDim SBatch ![] hbc (constant (F := Ideal) SScalar .f32 0x45000000#32)))
          (Host.divf (Host.reduceAdd v (constant (F := Ideal) SScalar .f32 0x00000000#32) hsum hone)
            (broadcastInDim SBatch ![] hbc (constant (F := Ideal) SScalar .f32 0x45000000#32)))))
      (constant (F := Ideal) SScalar .f32 0x00000000#32) hall hone)
    (constant (F := Ideal) SScalar .f32 0x42000000#32)

end Cert.Proof.Spec

end
-- ==== Proof.KI.Blocks.lean ====
/-
  The kernel's input blocks at a grid point, read back to the two argument arrays: which batch and which lane tile a
  point is, and through the host operations before the region (a reshape to [32, 2, 2048], the two slices, and the
  broadcasts that lay the u-coordinates out as columns and the v-coordinates as rows) which entry of an argument
  array each block element is.
-/
import proofs.«112864_j4939212390978_1_alg».proof.Proof.KI.Body
import proofs.«112864_j4939212390978_1_alg».proof.Proof.SpecArr
import Idealize.ShloMosaic.Lib.ValueIdx
import Idealize.ShloMosaic.Lib.ValueLayout
import Idealize.ShloMosaic.Lib.StableHlo.Run

set_option maxRecDepth 16384

noncomputable section

namespace Cert.Proof.KI

open Cert.KernelIdeal Cert.KernelIdeal.Gen
open Idealize.ShloMosaic Idealize.ShloMosaic.ValueIdx
open Idealize.ShloMosaic.TcCoe
open Idealize.SL Idealize.SL.Sem
open Idealize.ShloMosaic.Pipeline (Dat Cfg Window)

/-! ## The host operations before the region, read at an index -/

section Layout
variable {α : Type}

/-- Row `b`, entry `i` of the first half: reshape to [32, 2, 2048], slice [0:32, 0:1, 0:2048], reshape to [32, 2048]. -/
private theorem half0_apply (a : S32x4096.Idx → α) (b : Fin 32) (i : Fin 2048) :
    shapeCast S32x2048 (extractStridedSlice S32x1x2048 ![0, 0, 0] (shapeCast S32x2x2048 a shapeCasts_S32x4096_S32x2x2048)
      slices_S32x2x2048_S32x1x2048_0_0_0) shapeCasts_S32x1x2048_S32x2048 (ix2 b i)
      = a (ix2 b ⟨i.val, by have := i.isLt; omega⟩) := by
  have hb := b.isLt
  have hi := i.isLt
  refine (shapeCast_apply _ shapeCasts_S32x1x2048_S32x2048 (ix2 b i) (ix3 b (0 : Fin 1) i) ?_).trans ?_
  · rw [Shape.rowMajor_val_three, Shape.rowMajor_val_two]
    show (b.val * 1 + 0) * 2048 + i.val = b.val * 2048 + i.val
    omega
  refine (extractStridedSlice_apply _ _ slices_S32x2x2048_S32x1x2048_0_0_0 (ix3 b (0 : Fin 1) i) (ix3 b (0 : Fin 2) i) ?_).trans ?_
  · intro x
    match x with
    | ⟨0, _⟩ => show b.val = 0 + b.val; omega
    | ⟨1, _⟩ => show 0 = 0 + 0; rfl
    | ⟨2, _⟩ => show i.val = 0 + i.val; omega
  refine shapeCast_apply a shapeCasts_S32x4096_S32x2x2048 (ix3 b (0 : Fin 2) i) (ix2 b ⟨i.val, by omega⟩) ?_
  rw [Shape.rowMajor_val_three, Shape.rowMajor_val_two]
  show b.val * 4096 + i.val = (b.val * 2 + 0) * 2048 + i.val
  omega

/-- Row `b`, entry `i` of the second half: the same with the slice [0:32, 1:2, 0:2048]. -/
private theorem half1_apply (a : S32x4096.Idx → α) (b : Fin 32) (i : Fin 2048) :
    shapeCast S32x2048 (extractStridedSlice S32x1x2048 ![0, 1, 0] (shapeCast S32x2x2048 a shapeCasts_S32x4096_S32x2x2048)
      slices_S32x2x2048_S32x1x2048_0_1_0) shapeCasts_S32x1x2048_S32x2048 (ix2 b i)
      = a (ix2 b ⟨2048 + i.val, by have := i.isLt; omega⟩) := by
  have hb := b.isLt
  have hi := i.isLt
  refine (shapeCast_apply _ shapeCasts_S32x1x2048_S32x2048 (ix2 b i) (ix3 b (0 : Fin 1) i) ?_).trans ?_
  · rw [Shape.rowMajor_val_three, Shape.rowMajor_val_two]
    show (b.val * 1 + 0) * 2048 + i.val = b.val * 2048 + i.val
    omega
  refine (extractStridedSlice_apply _ _ slices_S32x2x2048_S32x1x2048_0_1_0 (ix3 b (0 : Fin 1) i) (ix3 b (1 : Fin 2) i) ?_).trans ?_
  · intro x
    match x with
    | ⟨0, _⟩ => show b.val = 0 + b.val; omega
    | ⟨1, _⟩ => show 1 = 1 + 0; rfl
    | ⟨2, _⟩ => show i.val = 0 + i.val; omega
  refine shapeCast_apply a shapeCasts_S32x4096_S32x2x2048 (ix3 b (1 : Fin 2) i) (ix2 b ⟨2048 + i.val, by omega⟩) ?_
  rw [Shape.rowMajor_val_three, Shape.rowMajor_val_two]
  show b.val * 4096 + (2048 + i.val) = (b.val * 2 + 1) * 2048 + i.val
  omega

/-- A [32, 2048] array laid out as columns [32, 2048, 1]. -/
private theorem col_apply (x : S32x2048.Idx → α) (b : Fin 32) (i : Fin 2048) :
    broadcastInDim S32x2048x1 ![0, 1] bcast_S32x2048_S32x2048x1_0_1 x (ix3 b i 0) = x (ix2 b i) := by
  refine broadcastInDim_apply _ bcast_S32x2048_S32x2048x1_0_1 x (ix3 b i 0) (ix2 b i) ?_
  intro a
  match a with
  | ⟨0, _⟩ => show b.val = if (32 : Nat) = 1 then 0 else b.val; rw [if_neg (by decide)]
  | ⟨1, _⟩ => show i.val = if (2048 : Nat) = 1 then 0 else i.val; rw [if_neg (by decide)]

/-- A [32, 2048] array laid out as rows [32, 1, 2048]. -/
private theorem row_apply (x : S32x2048.Idx → α) (b : Fin 32) (j : Fin 2048) :
    broadcastInDim S32x1x2048 ![0, 2] bcast_S32x2048_S32x1x2048_0_2 x (ix3 b 0 j) = x (ix2 b j) := by
  refine broadcastInDim_apply _ bcast_S32x2048_S32x1x2048_0_2 x (ix3 b 0 j) (ix2 b j) ?_
  intro a
  match a with
  | ⟨0, _⟩ => show b.val = if (32 : Nat) = 1 then 0 else b.val; rw [if_neg (by decide)]
  | ⟨1, _⟩ => show j.val = if (2048 : Nat) = 1 then 0 else j.val; rw [if_neg (by decide)]

end Layout

variable (m : (ℓ : Loc nD τ sig) → Buf (Elt Ideal) ℓ)

/-- The two argument arrays on core `c`, as launched. -/
abbrev arr0 (c : Dev nD) : FVec Ideal S32x4096 .f32 := m ((c : Thread nD τ).loc main_arg0)
abbrev arr1 (c : Dev nD) : FVec Ideal S32x4096 .f32 := m ((c : Thread nD τ).loc main_arg1)

/-- The batch of grid point `t` (the grid is 32 batches by 8 lane tiles, in row-major order). -/
def bOf (t : Fin cfg0.N) : Fin 32 := ⟨t.val / 8, by have := lt_of_lt_of_eq t.isLt (show cfg0.N = 256 from N_0); omega⟩
/-- The v-point that lane `l` of point `t`'s tile holds. -/
def jOf (t : Fin cfg0.N) (l : Fin 256) : Fin 2048 := ⟨256 * (t.val % 8) + l.val, by have := l.isLt; omega⟩

/-! ## The four arrays the region reads, as the host operations leave them -/

private theorem v10_eq (c : Dev nD) : (V m c main_v10 : S32x2048x1.Idx → EReal)
    = broadcastInDim S32x2048x1 ![0, 1] bcast_S32x2048_S32x2048x1_0_1
        (shapeCast S32x2048 (extractStridedSlice S32x1x2048 ![0, 0, 0] (shapeCast S32x2x2048 (arr0 m c) shapeCasts_S32x4096_S32x2x2048)
          slices_S32x2x2048_S32x1x2048_0_0_0) shapeCasts_S32x1x2048_S32x2048) := by
  show StableHlo.after hostOps0 (fun b => m (c, b)) (Proc.devRef .tc main_v10) = _
  after_results
  rfl

private theorem v11_eq (c : Dev nD) : (V m c main_v11 : S32x2048x1.Idx → EReal)
    = broadcastInDim S32x2048x1 ![0, 1] bcast_S32x2048_S32x2048x1_0_1
        (shapeCast S32x2048 (extractStridedSlice S32x1x2048 ![0, 1, 0] (shapeCast S32x2x2048 (arr0 m c) shapeCasts_S32x4096_S32x2x2048)
          slices_S32x2x2048_S32x1x2048_0_1_0) shapeCasts_S32x1x2048_S32x2048) := by
  show StableHlo.after hostOps0 (fun b => m (c, b)) (Proc.devRef .tc main_v11) = _
  after_results
  rfl

private theorem v12_eq (c : Dev nD) : (V m c main_v12 : S32x1x2048.Idx → EReal)
    = broadcastInDim S32x1x2048 ![0, 2] bcast_S32x2048_S32x1x2048_0_2
        (shapeCast S32x2048 (extractStridedSlice S32x1x2048 ![0, 0, 0] (shapeCast S32x2x2048 (arr1 m c) shapeCasts_S32x4096_S32x2x2048)
          slices_S32x2x2048_S32x1x2048_0_0_0) shapeCasts_S32x1x2048_S32x2048) := by
  show StableHlo.after hostOps0 (fun b => m (c, b)) (Proc.devRef .tc main_v12) = _
  after_results
  rfl

private theorem v13_eq (c : Dev nD) : (V m c main_v13 : S32x1x2048.Idx → EReal)
    = broadcastInDim S32x1x2048 ![0, 2] bcast_S32x2048_S32x1x2048_0_2
        (shapeCast S32x2048 (extractStridedSlice S32x1x2048 ![0, 1, 0] (shapeCast S32x2x2048 (arr1 m c) shapeCasts_S32x4096_S32x2x2048)
          slices_S32x2x2048_S32x1x2048_0_1_0) shapeCasts_S32x1x2048_S32x2048) := by
  show StableHlo.after hostOps0 (fun b => m (c, b)) (Proc.devRef .tc main_v13) = _
  after_results
  rfl

/-! ## Where a block sits in its array -/

/-- The printed index maps over the grid: every window's block index on the batch axis is the point's batch, the row
    windows' on the lane axis the point's tile, and all others are zero. -/
private theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = t.val % 8
    ∧ win0_3.index t (0 : Fin 3) = t.val / 8 ∧ win0_3.index t (1 : Fin 3) = 0 ∧ win0_3.index t (2 : Fin 3) = t.val % 8 :=
  (by decide +kernel : ∀ t : Fin grid0.N, _)

private theorem blk0_arr (c : Dev nD) (t : Fin cfg0.N) (i : Fin 2048) :
    (iblk m c 0 t : FVec Ideal S1x2048x1 .f32) (ix3 0 i 0) = (V m c main_v10 : S32x2048x1.Idx → EReal) (ix3 (bOf t) i 0) := by
  obtain ⟨e0, e1, e2, -⟩ := idx_facts t
  unfold iblk
  rw [View.read_apply]
  show V m c main_v10 (((cfg0.win 0).blk t).view.emb (ix3 0 i 0)) = V m c main_v10 (ix3 (bOf t) i 0)
  refine congrArg _ (funext fun a => Fin.ext ?_)
  match a with
  | ⟨0, _⟩ => show win0_0.index t (0 : Fin 3) * 1 + 1 * 0 = t.val / 8; rw [e0]; omega
  | ⟨1, _⟩ => show win0_0.index t (1 : Fin 3) * 2048 + 1 * i.val = i.val; rw [e1]; omega
  | ⟨2, _⟩ => show win0_0.index t (2 : Fin 3) * 1 + 1 * 0 = 0; rw [e2]

private theorem blk1_arr (c : Dev nD) (t : Fin cfg0.N) (i : Fin 2048) :
    (iblk m c 1 t : FVec Ideal S1x2048x1 .f32) (ix3 0 i 0) = (V m c main_v11 : S32x2048x1.Idx → EReal) (ix3 (bOf t) i 0) := by
  obtain ⟨-, -, -, e0, e1, e2, -⟩ := idx_facts t
  unfold iblk
  rw [View.read_apply]
  show V m c main_v11 (((cfg0.win 1).blk t).view.emb (ix3 0 i 0)) = V m c main_v11 (ix3 (bOf t) i 0)
  refine congrArg _ (funext fun a => Fin.ext ?_)
  match a with
  | ⟨0, _⟩ => show win0_1.index t (0 : Fin 3) * 1 + 1 * 0 = t.val / 8; rw [e0]; omega
  | ⟨1, _⟩ => show win0_1.index t (1 : Fin 3) * 2048 + 1 * i.val = i.val; rw [e1]; omega
  | ⟨2, _⟩ => show win0_1.index t (2 : Fin 3) * 1 + 1 * 0 = 0; rw [e2]

private theorem blk2_arr (c : Dev nD) (t : Fin cfg0.N) (l : Fin 256) :
    (iblk m c 2 t : FVec Ideal S1x1x256 .f32) (ix3 0 0 l) = (V m c main_v12 : S32x1x2048.Idx → EReal) (ix3 (bOf t) 0 (jOf t l)) := by
  obtain ⟨-, -, -, -, -, -, e0, e1, e2, -⟩ := idx_facts t
  unfold iblk
  rw [View.read_apply]
  show V m c main_v12 (((cfg0.win 2).blk t).view.emb (ix3 0 0 l)) = V m c main_v12 (ix3 (bOf t) 0 (jOf t l))
  refine congrArg _ (funext fun a => Fin.ext ?_)
  match a with
  | ⟨0, _⟩ => show win0_2.index t (0 : Fin 3) * 1 + 1 * 0 = t.val / 8; rw [e0]; omega
  | ⟨1, _⟩ => show win0_2.index t (1 : Fin 3) * 1 + 1 * 0 = 0; rw [e1]
  | ⟨2, _⟩ => show win0_2.index t (2 : Fin 3) * 256 + 1 * l.val = 256 * (t.val % 8) + l.val; rw [e2]; omega

private theorem blk3_arr (c : Dev nD) (t : Fin cfg0.N) (l : Fin 256) :
    (iblk m c 3 t : FVec Ideal S1x1x256 .f32) (ix3 0 0 l) = (V m c main_v13 : S32x1x2048.Idx → EReal) (ix3 (bOf t) 0 (jOf t l)) := by
  obtain ⟨-, -, -, -, -, -, -, -, -, e0, e1, e2⟩ := idx_facts t
  unfold iblk
  rw [View.read_apply]
  show V m c main_v13 (((cfg0.win 3).blk t).view.emb (ix3 0 0 l)) = V m c main_v13 (ix3 (bOf t) 0 (jOf t l))
  refine congrArg _ (funext fun a => Fin.ext ?_)
  match a with
  | ⟨0, _⟩ => show win0_3.index t (0 : Fin 3) * 1 + 1 * 0 = t.val / 8; rw [e0]; omega
  | ⟨1, _⟩ => show win0_3.index t (1 : Fin 3) * 1 + 1 * 0 = 0; rw [e1]
  | ⟨2, _⟩ => show win0_3.index t (2 : Fin 3) * 256 + 1 * l.val = 256 * (t.val % 8) + l.val; rw [e2]; omega

/-! ## The blocks as entries of the argument arrays -/

/-- The column blocks hold the x and the y coordinates of the batch's u-points. -/
theorem blk0_apply (c : Dev nD) (t : Fin cfg0.N) (i : Fin 2048) :
    (iblk m c 0 t : FVec Ideal S1x2048x1 .f32) (ix3 0 i 0) = Spec.px (arr0 m c) (bOf t) i := by
  rw [blk0_arr, v10_eq, col_apply, half0_apply]
  rfl
theorem blk1_apply (c : Dev nD) (t : Fin cfg0.N) (i : Fin 2048) :
    (iblk m c 1 t : FVec Ideal S1x2048x1 .f32) (ix3 0 i 0) = Spec.py (arr0 m c) (bOf t) i := by
  rw [blk1_arr, v11_eq, col_apply, half1_apply]
  rfl
/-- The row blocks hold the x and the y coordinates of the tile's v-points. -/
theorem blk2_apply (c : Dev nD) (t : Fin cfg0.N) (l : Fin 256) :
    (iblk m c 2 t : FVec Ideal S1x1x256 .f32) (ix3 0 0 l) = Spec.px (arr1 m c) (bOf t) (jOf t l) := by
  rw [blk2_arr, v12_eq, row_apply, half0_apply]
  rfl
theorem blk3_apply (c : Dev nD) (t : Fin cfg0.N) (l : Fin 256) :
    (iblk m c 3 t : FVec Ideal S1x1x256 .f32) (ix3 0 0 l) = Spec.py (arr1 m c) (bOf t) (jOf t l) := by
  rw [blk3_arr, v13_eq, row_apply, half1_apply]
  rfl

end Cert.Proof.KI

end
-- ==== Proof.KI.Payload.lean ====
/-
  What the kernel body's stored values are, index by index, on the extended reals.
-/
import proofs.«112864_j4939212390978_1_alg».proof.Proof.Gen.KernelIdeal.Skeleton
import proofs.«112864_j4939212390978_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Proof.KI

open Cert.KernelIdeal Cert.KernelIdeal.Gen
open Idealize.ShloMosaic Idealize.ShloMosaic.ValueIdx
open Idealize.ShloMosaic.TcCoe
open Idealize.SL Idealize.SL.Sem
open Idealize.ShloMosaic.Pipeline (Dat Cfg Window)

variable {α : Type}

/-- An `[a]` array cast to the column `[a, 1]` reads, at `(i, u)`, the operand at `i`, whatever the unit coordinate `u`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The distance matrix of a tile at `(i, l)`: the distance from u-point `i` to the tile's v-point `l`. -/
private theorem pay1_apply (x0 x1 : FVec Ideal S1x2048x1 .f32) (x2 x3 : FVec Ideal S1x1x256 .f32) (i : Fin 2048) (l : Fin 256) :
    k0_pay1 (F := Ideal) x0 x1 x2 x3 (ix2 i l)
      = Spec.dist (x0 (ix3 0 i 0)) (x1 (ix3 0 i 0)) (x2 (ix3 0 0 l)) (x3 (ix3 0 0 l)) := by
  have e1 : ∀ v : FVec Ideal S1x2048x1 .f32,
      broadcastTo S2048x256 (shapeCast S2048x1 v shapeCasts_S1x2048x1_S2048x1) broadcasts_S2048x1_S2048x256 (ix2 i l)
        = v (ix3 0 i 0) := fun v =>
    (broadcastTo_a1_ab_apply _ _ i l).trans (shapeCast_1ab_ab_apply v _ i 0)
  have e2 : ∀ v : FVec Ideal S1x1x256 .f32,
      broadcastTo S2048x256 (shapeCast S1x256 v shapeCasts_S1x1x256_S1x256) broadcasts_S1x256_S2048x256 (ix2 i l)
        = v (ix3 0 0 l) := fun v =>
    (broadcastTo_1b_ab_apply _ _ i l).trans (shapeCast_1ab_ab_apply v _ 0 l)
  unfold k0_pay1 Spec.dist
  show Ideal.sqrt ((_ - _) * (_ - _) + (_ - _) * (_ - _)) = _
  rw [e1 x0, e1 x1, e2 x2, e2 x3]

/-- A minimum reduction over one axis, read at the extended reals: the fold of `min` from the accumulator's value over
    that axis's coordinates. -/
private theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- From +∞ it is the minimum: below it is below every entry along the axis. -/
private theorem le_multiReduction_minimumf {s t : Shape} {a : Fin s.rank} (src : FVec Ideal s .f32)
    (h : s.Reduces [a] t) (hφ : FKind.Formats .f32) (hacc : (0x7F800000#32 : BitVec 32) = FKind.minimumf.neutral .f32 hφ)
    (j : t.Idx) (x : EReal) :
    x ≤ multiReduction .minimumf [a] t src 0x7F800000#32 h hφ hacc j ↔ ∀ k : Fin (s.size a), x ≤ src (h.lift j k) := by
  have htop : (FloatOps.ofBits .f32 0x7F800000#32 : Ideal .f32) = (⊤ : EReal) := by
    show Ideal.ofBits .f32 0x7F800000#32 = ⊤
    simp [Ideal.ofBits, Ideal.ieee]
  rw [multiReduction_minimumf_single, htop]
  exact (Finset.le_fold_min x).trans
    ⟨fun hx k => hx.2 k (Finset.mem_univ k), fun hx => ⟨le_top, fun k _ => hx k⟩⟩

/-- Over result row `i` of the reduction along the lanes, the source index with lane `k` inserted is `(i, k)`. -/
private theorem lift_lane (h : S2048x256.Reduces [1] S2048) (i : Fin 2048) (k : Fin (S2048x256.size 1)) :
    h.lift (ix1 i) k = ix2 i (⟨k.val, k.isLt⟩ : Fin 256) := by
  funext c; apply Fin.ext
  match c with
  | ⟨0, _⟩ => rfl
  | ⟨1, _⟩ => rfl

/-- Over result lane `l` of the reduction along the rows, the source index with row `k` inserted is `(k, l)`. -/
private theorem lift_row (h : S2048x256.Reduces [0] S256) (l : Fin 256) (k : Fin (S2048x256.size 0)) :
    h.lift (ix1 l) k = ix2 (⟨k.val, k.isLt⟩ : Fin 2048) l := by
  funext c; apply Fin.ext
  match c with
  | ⟨0, _⟩ => rfl
  | ⟨1, _⟩ => rfl

/-- The tile's column of minima at row `i`: the minimum over the tile's 256 lanes of the distances from u-point `i`. -/
private theorem pay2_le (x0 x1 : FVec Ideal S1x2048x1 .f32) (x2 x3 : FVec Ideal S1x1x256 .f32) (i : Fin 2048) (x : EReal) :
    x ≤ k0_pay2 (F := Ideal) x0 x1 x2 x3 (ix2 i 0)
      ↔ ∀ l : Fin 256, x ≤ Spec.dist (x0 (ix3 0 i 0)) (x1 (ix3 0 i 0)) (x2 (ix3 0 0 l)) (x3 (ix3 0 0 l)) := by
  have e : k0_pay2 (F := Ideal) x0 x1 x2 x3 (ix2 i 0)
      = multiReduction .minimumf [1] S2048 (k0_pay1 (F := Ideal) x0 x1 x2 x3) 0x7F800000#32 reduces_S2048x256_S2048 (.inl rfl) rfl (ix1 i) :=
    shapeCast_a_a1_apply (multiReduction .minimumf [1] S2048 (k0_pay1 (F := Ideal) x0 x1 x2 x3) 0x7F800000#32 reduces_S2048x256_S2048 (.inl rfl) rfl)
      shapeCasts_S2048_S2048x1 i 0
  rw [e]
  refine (le_multiReduction_minimumf _ _ _ _ _ x).trans ⟨fun hx l => ?_, fun hx k => ?_⟩
  · have h1 := hx (⟨l.val, l.isLt⟩ : Fin (S2048x256.size 1))
    rw [lift_lane, pay1_apply] at h1
    exact h1
  · rw [lift_lane, pay1_apply]
    exact hx _

/-- The column store's value at row `i`, at a batch's first tile: the minimum over the tile's 256 lanes of the distances
    from u-point `i` (its coordinates in the two column blocks) to the tile's v-points (in the two row blocks). -/
theorem pay4_le (x0 x1 : FVec Ideal S1x2048x1 .f32) (x2 x3 : FVec Ideal S1x1x256 .f32) (i : Fin 2048) (x : EReal) :
    x ≤ k0_pay4 (F := Ideal) x0 x1 x2 x3 (ix3 0 i 0)
      ↔ ∀ l : Fin 256, x ≤ Spec.dist (x0 (ix3 0 i 0)) (x1 (ix3 0 i 0)) (x2 (ix3 0 0 l)) (x3 (ix3 0 0 l)) := by
  have e : k0_pay4 (F := Ideal) x0 x1 x2 x3 (ix3 0 i 0) = k0_pay2 (F := Ideal) x0 x1 x2 x3 (ix2 i 0) :=
    shapeCast_ab_1ab_apply (k0_pay2 (F := Ideal) x0 x1 x2 x3) shapeCasts_S2048x1_S1x2048x1 0 i 0
  rw [e]
  exact pay2_le x0 x1 x2 x3 i x

/-- At a later tile: the minimum of what the column buffer held at row `i` and the tile's minimum there. -/
theorem pay5_apply (x0 x1 : FVec Ideal S1x2048x1 .f32) (x2 x3 : FVec Ideal S1x1x256 .f32) (y : FVec Ideal S1x2048x1 .f32) (i : Fin 2048) :
    k0_pay5 (F := Ideal) x0 x1 x2 x3 y (ix3 0 i 0) = min (y (ix3 0 i 0)) (k0_pay4 (F := Ideal) x0 x1 x2 x3 (ix3 0 i 0)) := by
  have e4 : k0_pay4 (F := Ideal) x0 x1 x2 x3 (ix3 0 i 0) = k0_pay2 (F := Ideal) x0 x1 x2 x3 (ix2 i 0) :=
    shapeCast_ab_1ab_apply (k0_pay2 (F := Ideal) x0 x1 x2 x3) shapeCasts_S2048x1_S1x2048x1 0 i 0
  have e5 : k0_pay5 (F := Ideal) x0 x1 x2 x3 y (ix3 0 i 0)
      = min (shapeCast S2048x1 y shapeCasts_S1x2048x1_S2048x1 (ix2 i 0)) (k0_pay2 (F := Ideal) x0 x1 x2 x3 (ix2 i 0)) :=
    shapeCast_ab_1ab_apply (minimumf (shapeCast S2048x1 y shapeCasts_S1x2048x1_S2048x1) (k0_pay2 (F := Ideal) x0 x1 x2 x3))
      shapeCasts_S2048x1_S1x2048x1 0 i 0
  rw [e4, e5, shapeCast_1ab_ab_apply y shapeCasts_S1x2048x1_S2048x1 i 0]

/-- The row store's value at lane `l`: the minimum over the 2048 u-points of their distances to the tile's v-point `l`. -/
theorem pay3_le (x0 x1 : FVec Ideal S1x2048x1 .f32) (x2 x3 : FVec Ideal S1x1x256 .f32) (l : Fin 256) (x : EReal) :
    x ≤ k0_pay3 (F := Ideal) x0 x1 x2 x3 (ix3 0 0 l)
      ↔ ∀ i : Fin 2048, x ≤ Spec.dist (x0 (ix3 0 i 0)) (x1 (ix3 0 i 0)) (x2 (ix3 0 0 l)) (x3 (ix3 0 0 l)) := by
  have e : k0_pay3 (F := Ideal) x0 x1 x2 x3 (ix3 0 0 l)
      = multiReduction .minimumf [0] S256 (k0_pay1 (F := Ideal) x0 x1 x2 x3) 0x7F800000#32 reduces_S2048x256_S256 (.inl rfl) rfl (ix1 l) :=
    (shapeCast_ab_1ab_apply
        (shapeCast S1x256 (multiReduction .minimumf [0] S256 (k0_pay1 (F := Ideal) x0 x1 x2 x3) 0x7F800000#32 reduces_S2048x256_S256 (.inl rfl) rfl)
          shapeCasts_S256_S1x256)
        shapeCasts_S1x256_S1x1x256 0 0 l).trans
      (shapeCast_a_1a_apply (multiReduction .minimumf [0] S256 (k0_pay1 (F := Ideal) x0 x1 x2 x3) 0x7F800000#32 reduces_S2048x256_S256 (.inl rfl) rfl)
        shapeCasts_S256_S1x256 0 l)
  rw [e]
  refine (le_multiReduction_minimumf _ _ _ _ _ x).trans ⟨fun hx i => ?_, fun hx k => ?_⟩
  · have h1 := hx (⟨i.val, i.isLt⟩ : Fin (S2048x256.size 0))
    rw [lift_row, pay1_apply] at h1
    exact h1
  · rw [lift_row, pay1_apply]
    exact hx _

end Cert.Proof.KI

end
-- ==== Proof.KI.Acc.lean ====
/-
  The running minimum in the column buffer, point by point: after the body at point `t` of batch `b`, tile `k`, row `i`
  of the buffer holds the minimum of the distances from u-point `i` to the v-points of tiles 0 … k; and the row
  buffer holds, at lane `l`, the minimum over all u-points of the distances to the tile's v-point `l`.
-/
import proofs.«112864_j4939212390978_1_alg».proof.Proof.KI.Blocks
import proofs.«112864_j4939212390978_1_alg».proof.Proof.KI.Payload

set_option maxRecDepth 16384

noncomputable section

namespace Cert.Proof.KI

open Cert.KernelIdeal Cert.KernelIdeal.Gen
open Idealize.ShloMosaic Idealize.ShloMosaic.ValueIdx
open Idealize.ShloMosaic.TcCoe
open Idealize.SL Idealize.SL.Sem
open Idealize.ShloMosaic.Pipeline (Dat Cfg Window)

variable (m : (ℓ : Loc nD τ sig) → Buf (Elt Ideal) ℓ)

/-- One tile's row minima: at row `i` of point `t`, the minimum over the tile's 256 lanes of the distances from the batch's
    u-point `i` to the tile's v-points. -/
theorem tile_min (c : Dev nD) (t : Fin cfg0.N) (i : Fin 2048) (x : EReal) :
    x ≤ (k0_pay4 (F := Ideal) (iblk m c 0 t) (iblk m c 1 t) (iblk m c 2 t) (iblk m c 3 t) : FVec Ideal S1x2048x1 .f32) (ix3 0 i 0)
      ↔ ∀ l : Fin 256, x ≤ Spec.D (arr0 m c) (arr1 m c) (bOf t) i (jOf t l) := by
  refine (pay4_le (iblk m c 0 t) (iblk m c 1 t) (iblk m c 2 t) (iblk m c 3 t) i x).trans ?_
  refine forall_congr' fun l => ?_
  rw [blk0_apply m c t i, blk1_apply m c t i, blk2_apply m c t l, blk3_apply m c t l]
  rfl

/-- At a batch's first tile the tile's v-points are the first 256 of the batch. -/
theorem first_tile_min (c : Dev nD) (t : Fin cfg0.N) (h0 : t.val % 8 = 0) (i : Fin 2048) :
    Spec.IsMinOn (fun j : Fin 2048 => j.val < 256)
      ((k0_pay4 (F := Ideal) (iblk m c 0 t) (iblk m c 1 t) (iblk m c 2 t) (iblk m c 3 t) : FVec Ideal S1x2048x1 .f32) (ix3 0 i 0))
      (fun j => Spec.D (arr0 m c) (arr1 m c) (bOf t) i j) :=
  Spec.IsMinOn.first_tile (N := 2048) (T := 256) (by norm_num) (f := fun j => Spec.D (arr0 m c) (arr1 m c) (bOf t) i j)
    (fun x => (tile_min m c t i x).trans (forall_congr' fun l => by
      rw [show jOf t l = ⟨l.val, lt_of_lt_of_le l.isLt (by norm_num)⟩ from Fin.ext (by show 256 * (t.val % 8) + l.val = l.val; omega)]))

/-- THE INVARIANT, by induction on the position in the grid: the first tile of a batch starts the running minimum over; a
    later tile, in the same batch as the tile before it, extends it by its 256 v-points. -/
theorem acc_inv_nat (c : Dev nD) : ∀ (n : ℕ) (hn : n < cfg0.N) (i : Fin 2048),
    Spec.IsMinOn (fun j : Fin 2048 => j.val < 256 * (n % 8 + 1))
      ((accAt m c n hn : FVec Ideal S1x2048x1 .f32) (ix3 0 i 0))
      (fun j => Spec.D (arr0 m c) (arr1 m c) (bOf ⟨n, hn⟩) i j)
  | 0, hn, i => by
    have e : accAt m c 0 hn = k0_pay4 (F := Ideal) (iblk m c 0 ⟨0, hn⟩) (iblk m c 1 ⟨0, hn⟩) (iblk m c 2 ⟨0, hn⟩) (iblk m c 3 ⟨0, hn⟩) :=
      accAt_first m c ⟨0, hn⟩ rfl
    rw [e]
    exact first_tile_min m c ⟨0, hn⟩ rfl i
  | n + 1, hn, i => by
    by_cases h0 : (n + 1) % 8 = 0
    · have e : accAt m c (n + 1) hn = k0_pay4 (F := Ideal) (iblk m c 0 ⟨n + 1, hn⟩) (iblk m c 1 ⟨n + 1, hn⟩) (iblk m c 2 ⟨n + 1, hn⟩) (iblk m c 3 ⟨n + 1, hn⟩) :=
        accAt_first m c ⟨n + 1, hn⟩ h0
      rw [e, h0]
      exact first_tile_min m c ⟨n + 1, hn⟩ h0 i
    · have e : accAt m c (n + 1) hn = k0_pay5 (F := Ideal) (iblk m c 0 ⟨n + 1, hn⟩) (iblk m c 1 ⟨n + 1, hn⟩) (iblk m c 2 ⟨n + 1, hn⟩) (iblk m c 3 ⟨n + 1, hn⟩)
          (accAt m c n (Nat.lt_of_succ_lt hn)) :=
        accAt_later m c ⟨n + 1, hn⟩ h0
      have e2 := pay5_apply (iblk m c 0 ⟨n + 1, hn⟩) (iblk m c 1 ⟨n + 1, hn⟩) (iblk m c 2 ⟨n + 1, hn⟩) (iblk m c 3 ⟨n + 1, hn⟩)
        (accAt m c n (Nat.lt_of_succ_lt hn)) i
      rw [e, e2]
      have ih := acc_inv_nat c n (Nat.lt_of_succ_lt hn) i
      have hN : n + 1 < 256 := lt_of_lt_of_eq hn (show cfg0.N = 256 from N_0)
      have hk : n % 8 + 1 = (n + 1) % 8 := by omega
      have hb : bOf ⟨n, Nat.lt_of_succ_lt hn⟩ = bOf ⟨n + 1, hn⟩ := Fin.ext (by show n / 8 = (n + 1) / 8; omega)
      rw [hk, hb] at ih
      exact Spec.IsMinOn.tile_step (N := 2048) (T := 256) (k := (n + 1) % 8) (by omega) ih
        (fun x => tile_min m c ⟨n + 1, hn⟩ i x)

/-- After the body at point `t` — tile `t % 8` of batch `t / 8` — row `i` of the column buffer holds the minimum of the distances
    from the batch's u-point `i` to the v-points of the batch's tiles 0 … t % 8. -/
theorem acc_inv (c : Dev nD) (t : Fin cfg0.N) (i : Fin 2048) :
    Spec.IsMinOn (fun j : Fin 2048 => j.val < 256 * (t.val % 8 + 1))
      ((accAt m c t.val t.isLt : FVec Ideal S1x2048x1 .f32) (ix3 0 i 0))
      (fun j => Spec.D (arr0 m c) (arr1 m c) (bOf t) i j) :=
  acc_inv_nat m c t.val t.isLt i

/-- Lane `l` of the row buffer after the body at point `t` holds the minimum, over all the batch's u-points, of the distances
    to the v-point the lane holds. -/
theorem row_min (c : Dev nD) (t : Fin cfg0.N) (l : Fin 256) :
    Spec.IsMin ((k0_pay3 (F := Ideal) (iblk m c 0 t) (iblk m c 1 t) (iblk m c 2 t) (iblk m c 3 t) : FVec Ideal S1x1x256 .f32) (ix3 0 0 l))
      (fun i => Spec.D (arr0 m c) (arr1 m c) (bOf t) i (jOf t l)) := by
  intro x
  refine (pay3_le (iblk m c 0 t) (iblk m c 1 t) (iblk m c 2 t) (iblk m c 3 t) l x).trans ?_
  refine forall_congr' fun i => ?_
  rw [blk0_apply m c t i, blk1_apply m c t i, blk2_apply m c t l, blk3_apply m c t l]
  rfl

end Cert.Proof.KI

end
-- ==== Proof.KI.Run.lean ====
/-
  The frame run of `KernelIdeal`: the body obligation at every grid point (the windows opened one by one; the column
  window is stored into at every point, so it is never handed back untouched), the launch of the one pipeline around
  which @main runs its host operations, and the frame: every weakly fair execution terminates, nothing faults, and
  the two argument arrays end as they were launched.
-/
import proofs.«112864_j4939212390978_1_alg».proof.Proof.KI.Body

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body obligation, at every point. -/
theorem body_obligation (c : Dev nD) : BodyObligation (dats (F := F) m 0 c) (defs₀ (F := F)) Variants.none () Set.univ := fun t => by
  rw [bigSep_W0, bigSep_W0]
  have hlive : idle0 4 (grid0.coords t) = false := live4 _
  simp only [hlive]
  exact sound_body m c t

set_option backward.isDefEq.respectTransparency.types false in
/-- For any float values, from any memory with zero counters: every weakly fair execution of @main terminates, and every
    final state has every array of the pipeline at what the proof data's write-backs leave (an input as the region found
    it; the column output and the row output as the flushed buffers overwrite them) and every other unscoped buffer as
    the host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates without a fault and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.KI

end
-- ==== Proof.KI.Final.lean ====
/-
  The two result arrays of the region after the run: every entry of the column result is the minimum of a row of the
  distance table, every entry of the row result the minimum of a column of it.
-/
import proofs.«112864_j4939212390978_1_alg».proof.Proof.KI.Acc
import proofs.«112864_j4939212390978_1_alg».proof.Proof.KI.Run

set_option maxRecDepth 16384

noncomputable section

namespace Cert.Proof.KI

open Cert.KernelIdeal Cert.KernelIdeal.Gen
open Idealize.ShloMosaic Idealize.ShloMosaic.ValueIdx
open Idealize.ShloMosaic.TcCoe
open Idealize.SL Idealize.SL.Sem
open Idealize.ShloMosaic.Pipeline (Dat Cfg Window)

variable (m : (ℓ : Loc nD τ sig) → Buf (Elt Ideal) ℓ)

/-- The block index of each result window at a grid point, in closed form: the column window moves with the batch
    alone, the row window with the batch and the lane tile. -/
private theorem idx_out : ∀ t : Fin cfg0.N,
    win0_4.index t (0 : Fin 3) = t.val / 8 ∧ win0_4.index t (1 : Fin 3) = 0 ∧ win0_4.index t (2 : Fin 3) = 0
    ∧ win0_5.index t (0 : Fin 3) = t.val / 8 ∧ win0_5.index t (1 : Fin 3) = 0 ∧ win0_5.index t (2 : Fin 3) = t.val % 8 :=
  (by decide +kernel : ∀ t : Fin grid0.N,
    win0_4.index t (0 : Fin 3) = t.val / 8 ∧ win0_4.index t (1 : Fin 3) = 0 ∧ win0_4.index t (2 : Fin 3) = 0
    ∧ win0_5.index t (0 : Fin 3) = t.val / 8 ∧ win0_5.index t (1 : Fin 3) = 0 ∧ win0_5.index t (2 : Fin 3) = t.val % 8)

/-! ## The column result

Point `t` of batch `b = t / 8` writes the column buffer back only when it is the batch's last tile (`t % 8 = 7`), into
rows `(b, ·, 0)` of the array; by then the running minimum ranges over all 8 · 256 = 2048 v-points. -/

/-- What a batch's last point writes back, row by row: the minimum over all the v-points. -/
private theorem flushed4_row (c : Dev nD) (t : Fin cfg0.N) (h7 : t.val % 8 = 7) (i : Fin 2048) :
    Spec.IsMin (((dats m 0 c).flushed 4 t : FVec Ideal S1x2048x1 .f32) (ix3 0 i 0))
      (fun j => Spec.D (arr0 m c) (arr1 m c) (bOf t) i j) := by
  show Spec.IsMin (((cfg0.win 4).cut (grid0.coords t) ((dats m 0 c).after 4 t) : FVec Ideal S1x2048x1 .f32) (ix3 0 i 0)) _
  rw [after0_4]
  refine (acc_inv m c t i).isMin fun j => ?_
  show j.val < 256 * (t.val % 8 + 1)
  have := j.isLt
  omega

/-- The same at any index of the block, the batch and the row named by their values. -/
private theorem flushed4_at (c : Dev nD) (t : Fin cfg0.N) (h7 : t.val % 8 = 7) (y : S1x2048x1.Idx) (b : Fin 32) (i : Fin 2048)
    (hb : b.val = t.val / 8) (hi : i.val = (y 1).val) :
    Spec.IsMin (((dats m 0 c).flushed 4 t : FVec Ideal S1x2048x1 .f32) y)
      (fun j => Spec.D (arr0 m c) (arr1 m c) b i j) := by
  obtain ⟨y0, y1, y2, rfl⟩ : ∃ (y0 : Fin 1) (y1 : Fin 2048) (y2 : Fin 1), y = ix3 y0 y1 y2 := ⟨y 0, y 1, y 2, eq_ix3 y⟩
  obtain rfl : y0 = 0 := Subsingleton.elim _ _
  obtain rfl : y2 = 0 := Subsingleton.elim _ _
  obtain rfl : b = bOf t := Fin.ext hb
  obtain rfl : i = y1 := Fin.ext hi
  exact flushed4_row m c t h7 i

/-- An index of the column result is in point `t`'s block iff each coordinate is in the block's range on its axis. -/
private theorem mem_blk4 (t : Fin cfg0.N) (i : S32x2048x1.Idx) :
    i ∈ ((cfg0.win 4).blk t).view.set
      ↔ ∀ a : Fin 3, win0_4.index t a * S1x2048x1.size a ≤ (i a).val ∧ (i a).val < win0_4.index t a * S1x2048x1.size a + S1x2048x1.size a := by
  show i ∈ ((View.whole main_v14_0).slice (win0_4.rect t)).set ↔ _
  rw [View.set_slice_whole, Rect.mem_set_unit]
  exact Iff.rfl

/-- Every entry of the column result after the run, the batch and the row read off the entry's index: every element a
    point writes back is such a minimum, and the last point of batch `b` covers the entries `(b, ·, 0)`. -/
private theorem final4_all (c : Dev nD) (idx : S32x2048x1.Idx) :
    Spec.IsMin (((dats m 0 c).arrAt 4 cfg0.N : FVec Ideal S32x2048x1 .f32) idx)
      (fun j => Spec.D (arr0 m c) (arr1 m c) ⟨(idx 0).val, (idx 0).isLt⟩ ⟨(idx 1).val, (idx 1).isLt⟩ j) := by
  refine (dats m 0 c).arrAt_forall_of_cover 4
    (fun (idx : S32x2048x1.Idx) (val : EReal) => Spec.IsMin val
      (fun j => Spec.D (arr0 m c) (arr1 m c) ⟨(idx 0).val, (idx 0).isLt⟩ ⟨(idx 1).val, (idx 1).isLt⟩ j)) ?_ ?_ idx
  · intro t hf y
    have h7 : t.val % 8 = 7 := (flush0_4 t).mp hf
    obtain ⟨e0, e1, e2, -, -, -⟩ := idx_out t
    show Spec.IsMin (((dats m 0 c).flushed 4 t : FVec Ideal S1x2048x1 .f32) y) _
    refine flushed4_at m c t h7 y _ _ ?_ ?_
    · show win0_4.index t (0 : Fin 3) * 1 + 1 * (y 0).val = t.val / 8
      have h0 : (y 0).val < 1 := (y 0).isLt
      omega
    · show win0_4.index t (1 : Fin 3) * 2048 + 1 * (y 1).val = (y 1).val
      omega
  · intro (i : S32x2048x1.Idx)
    have hN : cfg0.N = 256 := N_0
    have hi0 : (i 0).val < 32 := (i 0).isLt
    have hi1 : (i 1).val < 2048 := (i 1).isLt
    have hi2 : (i 2).val < 1 := (i 2).isLt
    obtain ⟨t, ht⟩ : ∃ t : Fin cfg0.N, t.val = 8 * (i 0).val + 7 := ⟨⟨8 * (i 0).val + 7, by omega⟩, rfl⟩
    obtain ⟨e0, e1, e2, -, -, -⟩ := idx_out t
    refine ⟨t, (flush0_4 t).mpr (by omega), ?_⟩
    rw [mem_blk4]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 2048 ≤ (i 1).val ∧ (i 1).val < win0_4.index t (1 : Fin 3) * 2048 + 2048; omega
    | ⟨2, _⟩ => show win0_4.index t (2 : Fin 3) * 1 ≤ (i 2).val ∧ (i 2).val < win0_4.index t (2 : Fin 3) * 1 + 1; omega

/-- The column result: written back after each batch's last tile, when the running minimum has met all 2048 v-points. -/
theorem final4 (c : Dev nD) (b : Fin 32) (i : Fin 2048) :
    Spec.IsMin (((dats m 0 c).arrAt 4 cfg0.N : FVec Ideal S32x2048x1 .f32) (ix3 b i 0))
      (fun j => Spec.D (arr0 m c) (arr1 m c) b i j) :=
  final4_all m c (ix3 b i 0)

/-! ## The row result

Every point `t` writes the row buffer back, into lanes `256 · (t % 8) + l` of row `(t / 8, 0, ·)` of the array; each
entry is final at once, all 2048 u-points being present at every point. -/

/-- What point `t` writes back, lane by lane: the minimum over all the u-points of the distances to the tile's v-point. -/
private theorem flushed5_lane (c : Dev nD) (t : Fin cfg0.N) (l : Fin 256) :
    Spec.IsMin (((dats m 0 c).flushed 5 t : FVec Ideal S1x1x256 .f32) (ix3 0 0 l))
      (fun i => Spec.D (arr0 m c) (arr1 m c) (bOf t) i (jOf t l)) := by
  show Spec.IsMin (((cfg0.win 5).cut (grid0.coords t) ((dats m 0 c).after 5 t) : FVec Ideal S1x1x256 .f32) (ix3 0 0 l)) _
  rw [after0_5]
  exact row_min m c t l

/-- The same at any index of the block, the batch and the v-point named by their values. -/
private theorem flushed5_at (c : Dev nD) (t : Fin cfg0.N) (y : S1x1x256.Idx) (b : Fin 32) (j : Fin 2048)
    (hb : b.val = t.val / 8) (hj : j.val = 256 * (t.val % 8) + (y 2).val) :
    Spec.IsMin (((dats m 0 c).flushed 5 t : FVec Ideal S1x1x256 .f32) y)
      (fun i => Spec.D (arr0 m c) (arr1 m c) b i j) := by
  obtain ⟨y0, y1, y2, rfl⟩ : ∃ (y0 : Fin 1) (y1 : Fin 1) (y2 : Fin 256), y = ix3 y0 y1 y2 := ⟨y 0, y 1, y 2, eq_ix3 y⟩
  obtain rfl : y0 = 0 := Subsingleton.elim _ _
  obtain rfl : y1 = 0 := Subsingleton.elim _ _
  obtain rfl : b = bOf t := Fin.ext hb
  obtain rfl : j = jOf t y2 := Fin.ext hj
  exact flushed5_lane m c t y2

/-- An index of the row result is in point `t`'s block iff each coordinate is in the block's range on its axis. -/
private theorem mem_blk5 (t : Fin cfg0.N) (i : S32x1x2048.Idx) :
    i ∈ ((cfg0.win 5).blk t).view.set
      ↔ ∀ a : Fin 3, win0_5.index t a * S1x1x256.size a ≤ (i a).val ∧ (i a).val < win0_5.index t a * S1x1x256.size a + S1x1x256.size a := by
  show i ∈ ((View.whole main_v14_1).slice (win0_5.rect t)).set ↔ _
  rw [View.set_slice_whole, Rect.mem_set_unit]
  exact Iff.rfl

/-- Every entry of the row result after the run, the batch and the v-point read off the entry's index: every element a
    point writes back is such a minimum, and point `8 b + j / 256` covers the entry `(b, 0, j)`. -/
private theorem final5_all (c : Dev nD) (idx : S32x1x2048.Idx) :
    Spec.IsMin (((dats m 0 c).arrAt 5 cfg0.N : FVec Ideal S32x1x2048 .f32) idx)
      (fun i => Spec.D (arr0 m c) (arr1 m c) ⟨(idx 0).val, (idx 0).isLt⟩ i ⟨(idx 2).val, (idx 2).isLt⟩) := by
  refine (dats m 0 c).arrAt_forall_of_cover 5
    (fun (idx : S32x1x2048.Idx) (val : EReal) => Spec.IsMin val
      (fun i => Spec.D (arr0 m c) (arr1 m c) ⟨(idx 0).val, (idx 0).isLt⟩ i ⟨(idx 2).val, (idx 2).isLt⟩)) ?_ ?_ idx
  · intro t hf y
    obtain ⟨-, -, -, e0, e1, e2⟩ := idx_out t
    show Spec.IsMin (((dats m 0 c).flushed 5 t : FVec Ideal S1x1x256 .f32) y) _
    refine flushed5_at m c t y _ _ ?_ ?_
    · show win0_5.index t (0 : Fin 3) * 1 + 1 * (y 0).val = t.val / 8
      have h0 : (y 0).val < 1 := (y 0).isLt
      omega
    · show win0_5.index t (2 : Fin 3) * 256 + 1 * (y 2).val = 256 * (t.val % 8) + (y 2).val
      omega
  · intro (i : S32x1x2048.Idx)
    have hN : cfg0.N = 256 := N_0
    have hi0 : (i 0).val < 32 := (i 0).isLt
    have hi1 : (i 1).val < 1 := (i 1).isLt
    have hi2 : (i 2).val < 2048 := (i 2).isLt
    obtain ⟨t, ht⟩ : ∃ t : Fin cfg0.N, t.val = 8 * (i 0).val + (i 2).val / 256 := ⟨⟨8 * (i 0).val + (i 2).val / 256, by omega⟩, rfl⟩
    obtain ⟨-, -, -, e0, e1, e2⟩ := idx_out t
    refine ⟨t, flush0_5 t, ?_⟩
    rw [mem_blk5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 1 ≤ (i 1).val ∧ (i 1).val < win0_5.index t (1 : Fin 3) * 1 + 1; omega
    | ⟨2, _⟩ => show win0_5.index t (2 : Fin 3) * 256 ≤ (i 2).val ∧ (i 2).val < win0_5.index t (2 : Fin 3) * 256 + 256; omega

/-- The row result: written back after every point, each tile's 256 entries final at once. -/
theorem final5 (c : Dev nD) (b : Fin 32) (j : Fin 2048) :
    Spec.IsMin (((dats m 0 c).arrAt 5 cfg0.N : FVec Ideal S32x1x2048 .f32) (ix3 b 0 j))
      (fun i => Spec.D (arr0 m c) (arr1 m c) b i j) :=
  final5_all m c (ix3 b 0 j)

end Cert.Proof.KI

end
-- ==== Proof.KI.Tail.lean ====
/-
  The idealized kernel's result: after the region, the host operations reshape the two result arrays to [32, 2048] and
  average them; the run's result buffer is the shared averaging of those two arrays, each of which holds, entry by
  entry, a minimum of the distance table.
-/
import proofs.«112864_j4939212390978_1_alg».proof.Proof.KI.Final
import Idealize.ShloMosaic.Lib.StableHlo.Run

set_option maxRecDepth 16384

noncomputable section

namespace Cert.Proof.KI

open Cert.KernelIdeal Cert.KernelIdeal.Gen
open Idealize.ShloMosaic Idealize.ShloMosaic.ValueIdx
open Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The two result arrays after the run, reshaped as the host operations read them: for each u-point its minimum, for each
    v-point its minimum. -/
def u2v (c : Dev nD) : FVec Ideal S32x2048 .f32 :=
  shapeCast S32x2048 ((dats m 0 c).arrAt 4 cfg0.N) shapeCasts_S32x2048x1_S32x2048
def v2u (c : Dev nD) : FVec Ideal S32x2048 .f32 :=
  shapeCast S32x2048 ((dats m 0 c).arrAt 5 cfg0.N) shapeCasts_S32x1x2048_S32x2048

/-- Entry (b, i) of the first is the minimum of row i of batch b's distance table (the reshape drops the unit axis). -/
theorem u2v_isMin (c : Dev nD) (b : Fin 32) (i : Fin 2048) :
    Spec.IsMin (u2v m c (ix2 b i)) (fun j => Spec.D (arr0 m c) (arr1 m c) b i j) := by
  have e : u2v m c (ix2 b i) = ((dats m 0 c).arrAt 4 cfg0.N : FVec Ideal S32x2048x1 .f32) (ix3 b i 0) :=
    shapeCast_apply _ _ (ix2 b i) (ix3 b i 0) (by
      rw [Shape.rowMajor_val_three, Shape.rowMajor_val_two]
      show (b.val * 2048 + i.val) * 1 + 0 = b.val * 2048 + i.val
      omega)
  rw [e]
  exact final4 m c b i

/-- Entry (b, j) of the second is the minimum of column j. -/
theorem v2u_isMin (c : Dev nD) (b : Fin 32) (j : Fin 2048) :
    Spec.IsMin (v2u m c (ix2 b j)) (fun i => Spec.D (arr0 m c) (arr1 m c) b i j) := by
  have e : v2u m c (ix2 b j) = ((dats m 0 c).arrAt 5 cfg0.N : FVec Ideal S32x1x2048 .f32) (ix3 b 0 j) :=
    shapeCast_apply _ _ (ix2 b j) (ix3 b 0 j) (by
      rw [Shape.rowMajor_val_three, Shape.rowMajor_val_two]
      show (b.val * 1 + 0) * 2048 + j.val = b.val * 2048 + j.val
      omega)
  rw [e]
  exact final5 m c b j

/-- What the host operations after the region leave in the result buffer: the averaging of the two arrays. -/
theorem tail_result (c : Dev nD) :
    Pipeline.afterTail₀ cfgs (dats m) 0 (V0 m) [hostOps1] c main_v27 = Spec.tail (u2v m c) (v2u m c) := by
  unfold Pipeline.afterTail₀
  simp only [hostOps1, List.flatten_cons, List.flatten_nil, List.append_nil]
  after_results_simp
  have e4 : Pipeline.withArrays (cfgs 0).spec c (V0 m c) (fun w => (dats m 0 c).arrAt w (cfgs 0).N) (Proc.devRef .tc main_v14_0)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.devRef .tc main_v14_1)
      = (dats m 0 c).arrAt 5 cfg0.N := Pipeline.withArrays_arr spec0 launch0.win.arr_inj c _ _ 5
  rw [e4, e5]
  rfl

/-- THE RUN WITH ITS VALUE: every weakly fair execution of the idealized kernel's @main terminates with the result buffer at
    the averaging of the two arrays of minima and both argument arrays as launched. -/
theorem run_value : θ_run defs (onTc (τ := τ) (main (F := Ideal))) ⟨m, fun _ => 0, ρ⟩ (fun r => ∀ c : Dev nD,
      r.2.mem ((c.tc : Thread nD τ).loc main_v27) = Spec.tail (u2v m c) (v2u m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v27 (Pipeline.mem_restRefs_of main_v27 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Proof.KI

end
-- ==== Proof.RefValue.lean ====
/-
  The reference program's two arrays of minima, and its result as the shared averaging of them.

  The reference lays both clouds out as [32, 2048, 2], broadcasts them against each other to [32, 2048, 2048, 2],
  subtracts, squares, sums the last axis from zero, takes the square root, and reduces the table of distances by
  minimum from +infinity over the v axis and over the u axis.
-/
import proofs.«112864_j4939212390978_1_alg».proof.Proof.Gen.ReferenceIdeal.Run
import proofs.«112864_j4939212390978_1_alg».proof.Proof.Gen.ReferenceIdeal.Read
import proofs.«112864_j4939212390978_1_alg».proof.Proof.SpecArr
import Idealize.ShloMosaic.Lib.ValueIdx
import Idealize.ShloMosaic.PureOps.Ideal.Laws
import Idealize.ShloMosaic.PureOps.Reduce

noncomputable section

namespace Cert.Proof.Ref

open Cert.ReferenceIdeal Cert.ReferenceIdeal.Gen Cert.ReferenceIdeal.Read
open Idealize.ShloMosaic Idealize.ShloMosaic.ValueIdx

/-! ## Where an entry of the table reads the two argument arrays -/

/-- The x coordinate of u-point i in batch b: the first cloud's layout chain at (b, i, j, 0) reads entry i of row b. -/
private theorem uidx0 (b : Fin 32) (i j : Fin 2048) :
    idx_main_v0 (idx_main_v1 (idx_main_v4 (idx_main_v6 (idx_main_v10 (ix3 b i j) (0 : Fin 2)))))
      = ix2 b (⟨i.val, by have := i.isLt; omega⟩ : Fin 4096) := by
  funext a
  apply Fin.ext
  have hb := b.isLt
  have hi := i.isLt
  match a with
  | ⟨0, _⟩ => show ((b.val * 2 + 0) * 2048 + i.val) / 4096 = b.val; omega
  | ⟨1, _⟩ => show ((b.val * 2 + 0) * 2048 + i.val) % 4096 = i.val; omega

/-- Its y coordinate: at (b, i, j, 1) the chain reads entry 2048 + i. -/
private theorem uidx1 (b : Fin 32) (i j : Fin 2048) :
    idx_main_v0 (idx_main_v1 (idx_main_v4 (idx_main_v6 (idx_main_v10 (ix3 b i j) (1 : Fin 2)))))
      = ix2 b (⟨2048 + i.val, by have := i.isLt; omega⟩ : Fin 4096) := by
  funext a
  apply Fin.ext
  have hb := b.isLt
  have hi := i.isLt
  match a with
  | ⟨0, _⟩ => show ((b.val * 2 + 1) * 2048 + i.val) / 4096 = b.val; omega
  | ⟨1, _⟩ => show ((b.val * 2 + 1) * 2048 + i.val) % 4096 = 2048 + i.val; omega

/-- The x coordinate of v-point j: the second cloud's chain at (b, i, j, 0) reads entry j of row b. -/
private theorem vidx0 (b : Fin 32) (i j : Fin 2048) :
    idx_main_v2 (idx_main_v3 (idx_main_v5 (idx_main_v7 (idx_main_v10 (ix3 b i j) (0 : Fin 2)))))
      = ix2 b (⟨j.val, by have := j.isLt; omega⟩ : Fin 4096) := by
  funext a
  apply Fin.ext
  have hb := b.isLt
  have hj := j.isLt
  match a with
  | ⟨0, _⟩ => show ((b.val * 2 + 0) * 2048 + j.val) / 4096 = b.val; omega
  | ⟨1, _⟩ => show ((b.val * 2 + 0) * 2048 + j.val) % 4096 = j.val; omega

/-- Its y coordinate: at (b, i, j, 1) the chain reads entry 2048 + j. -/
private theorem vidx1 (b : Fin 32) (i j : Fin 2048) :
    idx_main_v2 (idx_main_v3 (idx_main_v5 (idx_main_v7 (idx_main_v10 (ix3 b i j) (1 : Fin 2)))))
      = ix2 b (⟨2048 + j.val, by have := j.isLt; omega⟩ : Fin 4096) := by
  funext a
  apply Fin.ext
  have hb := b.isLt
  have hj := j.isLt
  match a with
  | ⟨0, _⟩ => show ((b.val * 2 + 1) * 2048 + j.val) / 4096 = b.val; omega
  | ⟨1, _⟩ => show ((b.val * 2 + 1) * 2048 + j.val) % 4096 = 2048 + j.val; omega

/-- The table's entry at (b, i, j) is the distance from u-point i to v-point j in batch b. -/
private theorem table_apply (a0 a1 : FVec Ideal S32x4096 .f32) (b : Fin 32) (i j : Fin 2048) :
    val_main_v11 (F := Ideal) a0 a1 (ix3 b i j) = Spec.D a0 a1 b i j := by
  rw [val_main_v11_apply, val_main_v10_apply, Fin.sum_univ_two, val_main_cst_apply]
  simp only [val_main_v9_apply, val_main_v8_apply, val_main_v6_apply, val_main_v7_apply, val_main_v4_apply,
    val_main_v5_apply, val_main_v1_apply, val_main_v3_apply, val_main_v0_apply, val_main_v2_apply,
    uidx0, uidx1, vidx0, vidx1]
  rw [Ideal.hostUnary_sqrt_def]
  simp only [Ideal.mulf_def, Ideal.subf_def]
  show Ideal.sqrt (Ideal.ofBits .f32 0x00000000#32 + _) = _
  rw [Ideal.ofBits_zero_f32, zero_add]
  unfold Spec.D Spec.dist Spec.px Spec.py
  rfl

/-! ## A minimum-reduction from +infinity over one axis is the minimum over that axis -/

/-- A fold of the minimum from +infinity over a finite family equal, entry by entry, to `f` is the minimum of `f`. -/
private theorem isMin_of_fold {n : ℕ} (init : EReal) (hinit : init = ⊤) (g f : Fin n → EReal) (hg : ∀ k, g k = f k) :
    Spec.IsMin ((Finset.univ : Finset (Fin n)).fold (FloatOps.minimumf (F := Ideal) (φ := .f32)) init g) f := by
  subst hinit
  have e : g = f := funext hg
  subst e
  exact Spec.isMin_fold g

/-- The word 0x7F800000 is +infinity, the top element. -/
private theorem top_word : Ideal.ofBits .f32 0x7F800000#32 = (⊤ : EReal) := by
  simp [Ideal.ofBits, Ideal.ieee]

/-- The index (b, i) with coordinate k put on the last axis is (b, i, k). -/
private theorem lift_last (h : S32x2048x2048.Reduces [2] S32x2048) (b : Fin 32) (i : Fin 2048)
    (k : Fin (S32x2048x2048.size 2)) : h.lift (ix2 b i) k = ix3 b i (⟨k.val, k.isLt⟩ : Fin 2048) := by
  funext c; apply Fin.ext
  match c with
  | ⟨0, _⟩ => rfl
  | ⟨1, _⟩ => rfl
  | ⟨2, _⟩ => rfl

/-- The index (b, j) with coordinate k put on the middle axis is (b, k, j). -/
private theorem lift_mid (h : S32x2048x2048.Reduces [1] S32x2048) (b : Fin 32) (j : Fin 2048)
    (k : Fin (S32x2048x2048.size 1)) : h.lift (ix2 b j) k = ix3 b (⟨k.val, k.isLt⟩ : Fin 2048) j := by
  funext c; apply Fin.ext
  match c with
  | ⟨0, _⟩ => rfl
  | ⟨1, _⟩ => rfl
  | ⟨2, _⟩ => rfl

/-- For each u-point, the reference's minimum over the v axis is the minimum of its row of the distance table. -/
theorem ref_u2v (a0 a1 : FVec Ideal S32x4096 .f32) (b : Fin 32) (i : Fin 2048) :
    Spec.IsMin (val_main_v12 (F := Ideal) a0 a1 (ix2 b i)) (fun j => Spec.D a0 a1 b i j) := by
  have h : S32x2048x2048.Reduces [2] S32x2048 := by decide
  unfold val_main_v12
  rw [Host.reduce_eq_fold_single FloatOps.minimumf _ _ reducesTo_S32x2048x2048_S32x2048_d2 h h_S_ (ix2 b i)]
  exact isMin_of_fold (n := 2048) _ ((val_main_cst_0_apply _).trans top_word) _ _
    (fun k => (congrArg (val_main_v11 (F := Ideal) a0 a1) (lift_last h b i k)).trans (table_apply a0 a1 b i _))

/-- For each v-point, the minimum over the u axis is the minimum of its column. -/
theorem ref_v2u (a0 a1 : FVec Ideal S32x4096 .f32) (b : Fin 32) (j : Fin 2048) :
    Spec.IsMin (val_main_v16 (F := Ideal) a0 a1 (ix2 b j)) (fun i => Spec.D a0 a1 b i j) := by
  have h : S32x2048x2048.Reduces [1] S32x2048 := by decide
  unfold val_main_v16
  rw [Host.reduce_eq_fold_single FloatOps.minimumf _ _ reducesTo_S32x2048x2048_S32x2048_d1 h h_S_ (ix2 b j)]
  exact isMin_of_fold (n := 2048) _ ((val_main_cst_3_apply _).trans top_word) _ _
    (fun k => (congrArg (val_main_v11 (F := Ideal) a0 a1) (lift_mid h b j k)).trans (table_apply a0 a1 b _ j))

/-- The reference's result is the shared averaging of its two arrays of minima. -/
theorem ref_tail (a0 a1 : FVec Ideal S32x4096 .f32) :
    val_main_v24 (F := Ideal) a0 a1 = Spec.tail (val_main_v12 (F := Ideal) a0 a1) (val_main_v16 (F := Ideal) a0 a1) := by
  unfold val_main_v24 val_main_v23 val_main_v22 val_main_v21 val_main_v20 val_main_v19 val_main_v18 val_main_v17
    val_main_v15 val_main_v14 val_main_v13 val_main_cst_1 val_main_cst_2 val_main_cst_4 val_main_cst_5 val_main_cst_6
    val_main_cst_7 val_main_cst_8 Spec.tail
  generalize val_main_v12 (F := Ideal) a0 a1 = u
  generalize val_main_v16 (F := Ideal) a0 a1 = v
  rfl

end Cert.Proof.Ref

end
-- ==== Proof.lean ====
/-
  The certificate of the point-to-closest-point distance kernel against its reference, over the extended reals.

  Per batch, both programs hold two clouds of 2048 planar points, u (from the first argument array: x coordinates, then y
  coordinates) and v (from the second), and form the table of distances d(i, j) = sqrt((ux i - vx j)^2 + (uy i - vy j)^2).
  They take, for each u-point, the minimum over the v-points and, for each v-point, the minimum over the u-points,
  and end with the same averaging of those two arrays.

  The kernel runs on a grid of 32 batches by 8 tiles of 256 v-points. At a point it forms the 2048 by 256 block of the
  table; the block's column minima are final at once (all u-points are present) and are written back after every
  point; the block's row minima are folded into a running minimum over the batch's tiles — started over at the
  first tile, written back after the last. The reference reduces the whole table by minimum over each axis, from
  +infinity. A minimum is carried by its universal property (x ≤ v iff x is below every member), so the running
  minimum over tiles 0 … k is the minimum over the v-points below 256 (k + 1) by induction on the point, and after
  the last tile it is the minimum over all of them: the two programs' arrays of minima are equal entry by entry
  because a family has one minimum, and nothing about the distances themselves — not even their finiteness — is
  used. The averaging after that is one function applied to equal arrays.

  The three frames: the two kernel programs' by their body obligations over the pipeline (two control cases, by
  whether a point is a batch's first tile), at the word-level instance and at the ideal one from one text; the
  reference's by its run with the result dropped. The idealization rewrote nothing, so it is preserved trivially.
-/
import proofs.«112864_j4939212390978_1_alg».proof.Defs
import proofs.«112864_j4939212390978_1_alg».proof.Proof.Gen.Kernel
import proofs.«112864_j4939212390978_1_alg».proof.Proof.Gen.KernelIdeal
import proofs.«112864_j4939212390978_1_alg».proof.Proof.Gen.ReferenceIdeal
import proofs.«112864_j4939212390978_1_alg».proof.Proof.Gen.Pre_finite_inputs
import proofs.«112864_j4939212390978_1_alg».proof.Proof.K.Run
import proofs.«112864_j4939212390978_1_alg».proof.Proof.KI.Tail
import proofs.«112864_j4939212390978_1_alg».proof.Proof.RefValue
import Idealize.ShloMosaic.Adequacy
import Idealize.ShloMosaic.Init

noncomputable section

namespace Cert.Proof

open Idealize.ShloMosaic Idealize.ShloMosaic.ValueIdx Idealize.SL.Sem

/-! ## The two programs' arrays of minima are equal -/

/-- For each u-point: the kernel's running minimum after the batch's last tile and the reference's reduction over the v
    axis are both the minimum of the point's row of the distance table. -/
theorem u2v_eq (m : (ℓ : Loc Cert.KernelIdeal.nD Cert.KernelIdeal.τ Cert.KernelIdeal.sig) → Buf (Elt Ideal) ℓ) (c : Dev Cert.KernelIdeal.nD) :
    KI.u2v m c = Cert.ReferenceIdeal.Read.val_main_v12 (F := Ideal) (KI.arr0 m c) (KI.arr1 m c) := by
  funext p
  obtain ⟨b, i, rfl⟩ : ∃ (b : Fin 32) (i : Fin 2048), p = ix2 b i := ⟨p 0, p 1, eq_ix2 p⟩
  exact Spec.IsMin.unique (KI.u2v_isMin m c b i) (Ref.ref_u2v (KI.arr0 m c) (KI.arr1 m c) b i)

/-- For each v-point: the kernel's column minimum of the point's tile and the reference's reduction over the u axis are both
    the minimum of the point's column. -/
theorem v2u_eq (m : (ℓ : Loc Cert.KernelIdeal.nD Cert.KernelIdeal.τ Cert.KernelIdeal.sig) → Buf (Elt Ideal) ℓ) (c : Dev Cert.KernelIdeal.nD) :
    KI.v2u m c = Cert.ReferenceIdeal.Read.val_main_v16 (F := Ideal) (KI.arr0 m c) (KI.arr1 m c) := by
  funext p
  obtain ⟨b, j, rfl⟩ : ∃ (b : Fin 32) (j : Fin 2048), p = ix2 b j := ⟨p 0, p 1, eq_ix2 p⟩
  exact Spec.IsMin.unique (KI.v2u_isMin m c b j) (Ref.ref_v2u (KI.arr0 m c) (KI.arr1 m c) b j)

/-! ## The claims -/

theorem frame_k : Cert.frame_Kernel := fun m ρ _ => K.frame (F := Bits) m ρ
theorem frame_ki : Cert.frame_KernelIdeal := fun m ρ _ => KI.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the two argument arrays both idealized programs end, with the result at the averaging of
    the kernel's two arrays of minima: the kernel by its run, the reference because its own two arrays are those. -/
theorem algebraic : Cert.algebraic_KernelIdeal_ReferenceIdeal := by
  intro m ρ m' ρ' _ hagree
  refine ⟨fun c => Spec.tail (KI.u2v m c) (KI.v2u m c), KI.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v24_eq _ _).trans ?_
  refine (Ref.ref_tail _ _).trans ?_
  show Spec.tail _ _ = Spec.tail (KI.u2v m c) (KI.v2u m c)
  rw [u2v_eq m c, v2u_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
